-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S10000x128 : Shape := ⟨2, ![10000, 128]⟩
abbrev S800000x128 : Shape := ⟨2, ![800000, 128]⟩
abbrev S10000x1 : Shape := ⟨2, ![10000, 1]⟩
abbrev S1x128 : Shape := ⟨2, ![1, 128]⟩
abbrev S5000x128 : Shape := ⟨2, ![5000, 128]⟩
abbrev S5000x1 : Shape := ⟨2, ![5000, 1]⟩
abbrev S50000x64 : Shape := ⟨2, ![50000, 64]⟩
abbrev S10000x64 : Shape := ⟨2, ![10000, 64]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 76
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S800000x1, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S1x64, .f32⟩
  | .hbm, ⟨75, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x1, .f32⟩
  | .local _ .vmem, ⟨28, _⟩ => ⟨S10000x1, .f32⟩
  | .local _ .vmem, ⟨29, _⟩ => ⟨S10000x64, .f32⟩
  | .local _ .vmem, ⟨30, _⟩ => ⟨S10000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x1, .f32⟩
  | .local _ .vmem, ⟨36, _⟩ => ⟨S5000x1, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S800000_S800000x1 : S800000.ShapeCasts S800000x1
  shapeCasts_S50000_S50000x1 : S50000.ShapeCasts S50000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S800000x128.size a
  hwx1_0 : ∀ i : grid1.Coords, EltTy.bits .f32 = 32 ∨ (Rect.block (s := S800000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S800000x1.size a
  hwx1_1 : ∀ i : grid1.Coords, EltTy.bits .f32 = 32 ∨ (Rect.block (s := S800000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S800000x128.size a
  hwx1_2 : ∀ i : grid1.Coords, EltTy.bits .f32 = 32 ∨ (Rect.block (s := S800000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S800000x64.size a
  hwx4_0 : ∀ i : grid4.Coords, EltTy.bits .f32 = 32 ∨ (Rect.block (s := S800000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S800000x1.size a
  hwx4_1 : ∀ i : grid4.Coords, EltTy.bits .f32 = 32 ∨ (Rect.block (s := S800000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S800000x64.size a
  hwx4_2 : ∀ i : grid4.Coords, EltTy.bits .f32 = 32 ∨ (Rect.block (s := S800000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v42) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v54) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v55) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000, .f32⟩
  | .hbm, ⟨96, _⟩ => ⟨S800000, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x64, .f32⟩
  | .hbm, ⟨106, _⟩ => ⟨S800000x1, .f32⟩
  | .hbm, ⟨107, _⟩ => ⟨S800000x64, .f32⟩
  | .hbm, ⟨108, _⟩ => ⟨S800000x64, .f32⟩
  | .hbm, ⟨109, _⟩ => ⟨S_, .f32⟩
  | .hbm, ⟨110, _⟩ => ⟨S50000x64, .f32⟩
  | .hbm, ⟨111, _⟩ => ⟨S800000x1, .i32⟩
  | .hbm, ⟨112, _⟩ => ⟨S50000x64, .f32⟩
  | .hbm, ⟨113, _⟩ => ⟨S50000, .f32⟩
  | .hbm, ⟨114, _⟩ => ⟨S50000x1, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S1x64, .f32⟩
  | .hbm, ⟨119, _⟩ => ⟨S50000x64, .f32⟩
  | .hbm, ⟨120, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.DenseStages.lean ====
/-
  The dense stages of the graph convolution, each as one function of whole arrays in the reference's spelling:
  the feature product x·W, the scaling of every gathered row by its edge's coefficient, and the epilogue
  agg + h·s + b (with its cut at zero after the first layer). The kernel's pallas_calls are proved to leave these
  functions of their operand arrays; the reference applies the same operations on the host.
-/
import proofs.«105802_j5342939316732_1_alg».proof.ReferenceIdeal
import proofs.«105802_j5342939316732_1_alg».proof.Proof.Gen.ReferenceIdeal
import Idealize.ShloMosaic.PureOps.Ideal

noncomputable section

open Idealize.ShloMosaic

namespace Cert.Ops

open Cert.ReferenceIdeal Cert.ReferenceIdeal.Gen

variable {F : FTy → Type} [FloatOps F]

/-- A whole array of the given shape and element type. -/
abbrev Arr (F : FTy → Type) (S : Shape) (e : EltTy) : Type := (⟨S, e⟩ : BufTy).Contents (Elt F)

/-- x · W₁ : [50000,128] · [128,128]. -/
def dot128 (x : Arr F S50000x128 .f32) (w : Arr F S128x128 .f32) : Arr F S50000x128 .f32 :=
  Host.dotGeneral dot_S50000x128_S128x128_S50000x128_1_0_0_1_n_n none x w

/-- h · W₂ : [50000,128] · [128,64]. -/
def dot64 (x : Arr F S50000x128 .f32) (w : Arr F S128x64 .f32) : Arr F S50000x64 .f32 :=
  Host.dotGeneral dot_S50000x128_S128x64_S50000x64_1_0_0_1_n_n none x w

/-- Row e of the gathered features times the coefficient of edge e (a [800000,1] column), 128 wide. -/
def scale128 (h : Arr F S800000x128 .f32) (col : Arr F S800000x1 .f32) : Arr F S800000x128 .f32 :=
  mulf h (broadcastInDim S800000x128 ![0, 1] bcast_S800000x1_S800000x128_0_1 col)

/-- The same, 64 wide. -/
def scale64 (h : Arr F S800000x64 .f32) (col : Arr F S800000x1 .f32) : Arr F S800000x64 .f32 :=
  mulf h (broadcastInDim S800000x64 ![0, 1] bcast_S800000x1_S800000x64_0_1 col)

/-- agg + h · s + b, 128 wide: s a [50000,1] column, b a [1,128] row. -/
def combine128 (agg h : Arr F S50000x128 .f32) (s : Arr F S50000x1 .f32) (b : Arr F S1x128 .f32) : Arr F S50000x128 .f32 :=
  addf (addf agg (mulf h (broadcastInDim S50000x128 ![0, 1] bcast_S50000x1_S50000x128_0_1 s)))
    (broadcastInDim S50000x128 ![0, 1] bcast_S1x128_S50000x128_0_1 b)

/-- max(v, 0), 128 wide. -/
def relu128 (v : Arr F S50000x128 .f32) : Arr F S50000x128 .f32 :=
  maximumf v (broadcastInDim S50000x128 ![] bcast_S_S50000x128 (constant S_ .f32 0x00000000#32))

/-- agg + h · s + b, 64 wide. -/
def combine64 (agg h : Arr F S50000x64 .f32) (s : Arr F S50000x1 .f32) (b : Arr F S1x64 .f32) : Arr F S50000x64 .f32 :=
  addf (addf agg (mulf h (broadcastInDim S50000x64 ![0, 1] bcast_S50000x1_S50000x64_0_1 s)))
    (broadcastInDim S50000x64 ![0, 1] bcast_S1x64_S50000x64_0_1 b)

end Cert.Ops

end
-- ==== Proof.ColumnForms.lean ====
/-
  A column [n] → [n,1] and a row [n] → [1,n] are spelt in two ways: as a reshape (the kernel's host code) and as a
  broadcast along the kept axis (the reference's). Both read entry r of the vector at (r,0), respectively (0,r), so
  they are the same array.
-/
import proofs.«105802_j5342939316732_1_alg».proof.ReferenceIdeal
import proofs.«105802_j5342939316732_1_alg».proof.Proof.Gen.ReferenceIdeal
import Idealize.ShloMosaic.Lib.Pipeline.Value
import Idealize.ShloMosaic.Lib.ValueIdx

noncomputable section

open Idealize.ShloMosaic

namespace Cert.ColumnForms

open Cert.ReferenceIdeal Cert.ReferenceIdeal.Gen

variable {α : Type}

/-- [800000] as a column: the reshape is the broadcast along axis 0. -/
theorem col800000 (y : S800000.Idx → α) (h : S800000.ShapeCasts S800000x1) :
    shapeCast S800000x1 y h = broadcastInDim S800000x1 ![0] bcast_S800000_S800000x1_0 y := by
  funext j
  have h0 : (j 0).val < 800000 := (j 0).isLt
  have h1 : (j 1).val < 1 := (j 1).isLt
  let k : S800000.Idx := fun a => match a with | ⟨0, _⟩ => ⟨(j 0).val, (j 0).isLt⟩
  rw [shapeCast_apply y h j k (by rewrite [Shape.rowMajor_val_two, Shape.rowMajor_val_one]; show (j 0).val = (j 0).val * 1 + (j 1).val; omega),
    broadcastInDim_apply _ bcast_S800000_S800000x1_0 y j k (fun a => match a with
      | ⟨0, _⟩ => by show (j 0).val = if (800000 : Nat) = 1 then 0 else (j 0).val; rw [if_neg (by decide)])]

/-- [50000] as a column. -/
theorem col50000 (y : S50000.Idx → α) (h : S50000.ShapeCasts S50000x1) :
    shapeCast S50000x1 y h = broadcastInDim S50000x1 ![0] bcast_S50000_S50000x1_0 y := by
  funext j
  have h0 : (j 0).val < 50000 := (j 0).isLt
  have h1 : (j 1).val < 1 := (j 1).isLt
  let k : S50000.Idx := fun a => match a with | ⟨0, _⟩ => ⟨(j 0).val, (j 0).isLt⟩
  rw [shapeCast_apply y h j k (by rewrite [Shape.rowMajor_val_two, Shape.rowMajor_val_one]; show (j 0).val = (j 0).val * 1 + (j 1).val; omega),
    broadcastInDim_apply _ bcast_S50000_S50000x1_0 y j k (fun a => match a with
      | ⟨0, _⟩ => by show (j 0).val = if (50000 : Nat) = 1 then 0 else (j 0).val; rw [if_neg (by decide)])]

/-- [128] as a row: the reshape is the broadcast along axis 1. -/
theorem row128 (y : S128.Idx → α) (h : S128.ShapeCasts S1x128) :
    shapeCast S1x128 y h = broadcastInDim S1x128 ![1] bcast_S128_S1x128_1 y := by
  funext j
  have h0 : (j 0).val < 1 := (j 0).isLt
  have h1 : (j 1).val < 128 := (j 1).isLt
  let k : S128.Idx := fun a => match a with | ⟨0, _⟩ => ⟨(j 1).val, (j 1).isLt⟩
  rw [shapeCast_apply y h j k (by rewrite [Shape.rowMajor_val_two, Shape.rowMajor_val_one]; show (j 1).val = (j 0).val * 128 + (j 1).val; omega),
    broadcastInDim_apply _ bcast_S128_S1x128_1 y j k (fun a => match a with
      | ⟨0, _⟩ => by show (j 1).val = if (128 : Nat) = 1 then 0 else (j 1).val; rw [if_neg (by decide)])]

/-- [64] as a row. -/
theorem row64 (y : S64.Idx → α) (h : S64.ShapeCasts S1x64) :
    shapeCast S1x64 y h = broadcastInDim S1x64 ![1] bcast_S64_S1x64_1 y := by
  funext j
  have h0 : (j 0).val < 1 := (j 0).isLt
  have h1 : (j 1).val < 64 := (j 1).isLt
  let k : S64.Idx := fun a => match a with | ⟨0, _⟩ => ⟨(j 1).val, (j 1).isLt⟩
  rw [shapeCast_apply y h j k (by rewrite [Shape.rowMajor_val_two, Shape.rowMajor_val_one]; show (j 1).val = (j 0).val * 64 + (j 1).val; omega),
    broadcastInDim_apply _ bcast_S64_S1x64_1 y j k (fun a => match a with
      | ⟨0, _⟩ => by show (j 1).val = if (64 : Nat) = 1 then 0 else (j 1).val; rw [if_neg (by decide)])]

end Cert.ColumnForms

end
-- ==== Proof.Boundary1.lean ====
/-
  The kernel program's buffers when its first pallas_call is entered. The host stretch before it computes, from the
  edge list alone, the two endpoint vectors, the in-degree plus one d, the coefficient column d(src)^(-1/2)·d(dst)^(-1/2)
  and the self-loop column d^(-1/2)·d^(-1/2); these are the reference's own stages of the edge list (the reference
  computes them once per layer, to the same values). The argument arrays are untouched.
-/
import proofs.«105802_j5342939316732_1_alg».proof.Proof.KernelIdealFrame
import proofs.«105802_j5342939316732_1_alg».proof.Proof.Gen.ReferenceIdeal.Read
import proofs.«105802_j5342939316732_1_alg».proof.Proof.DenseStages
import proofs.«105802_j5342939316732_1_alg».proof.Proof.ColumnForms
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.GenP Cert.Ops Cert.ReferenceIdeal.Read

variable (m : (ℓ : Loc nD τ sig) → Buf (Elt Ideal) ℓ) (ρ : Dev nD → PrngReg)

/-! ## The argument arrays at their literal types -/

abbrev argX (c : Dev nD) : Arr Ideal S50000x128 .f32 := m ((c : Thread nD τ).loc main_arg0)
abbrev argE (c : Dev nD) : Arr Ideal S2x800000 .i32 := m ((c : Thread nD τ).loc main_arg1)
abbrev argWa (c : Dev nD) : Arr Ideal S128x128 .f32 := m ((c : Thread nD τ).loc main_arg2)
abbrev argBa (c : Dev nD) : Arr Ideal S128 .f32 := m ((c : Thread nD τ).loc main_arg3)
abbrev argWb (c : Dev nD) : Arr Ideal S128x64 .f32 := m ((c : Thread nD τ).loc main_arg4)
abbrev argBb (c : Dev nD) : Arr Ideal S64 .f32 := m ((c : Thread nD τ).loc main_arg5)

/-! ## Entry of region 0: what the first host stretch computes from the edge list, and the arguments it leaves alone -/

theorem W1_X (c : Dev nD) : @Eq (Arr Ideal S50000x128 .f32) (W1 m ρ c (Proc.devRef .tc main_arg0)) (argX m c) := by
  show StableHlo.after hostOps0 (W0 m ρ c) (Proc.devRef .tc main_arg0) = _
  after_results_simp <;> rfl
theorem W1_Wa (c : Dev nD) : @Eq (Arr Ideal S128x128 .f32) (W1 m ρ c (Proc.devRef .tc main_arg2)) (argWa m c) := by
  show StableHlo.after hostOps0 (W0 m ρ c) (Proc.devRef .tc main_arg2) = _
  after_results_simp <;> rfl
theorem W1_Ba (c : Dev nD) : @Eq (Arr Ideal S128 .f32) (W1 m ρ c (Proc.devRef .tc main_arg3)) (argBa m c) := by
  show StableHlo.after hostOps0 (W0 m ρ c) (Proc.devRef .tc main_arg3) = _
  after_results_simp <;> rfl
theorem W1_Wb (c : Dev nD) : @Eq (Arr Ideal S128x64 .f32) (W1 m ρ c (Proc.devRef .tc main_arg4)) (argWb m c) := by
  show StableHlo.after hostOps0 (W0 m ρ c) (Proc.devRef .tc main_arg4) = _
  after_results_simp <;> rfl
theorem W1_Bb (c : Dev nD) : @Eq (Arr Ideal S64 .f32) (W1 m ρ c (Proc.devRef .tc main_arg5)) (argBb m c) := by
  show StableHlo.after hostOps0 (W0 m ρ c) (Proc.devRef .tc main_arg5) = _
  after_results_simp <;> rfl

/-- The source endpoints: row 0 of the edge list. -/
theorem W1_src (c : Dev nD) : @Eq (Arr Ideal S800000 .i32) (W1 m ρ c (Proc.devRef .tc main_v1)) (val_main_v1 (argE m c)) := by
  show StableHlo.after hostOps0 (W0 m ρ c) (Proc.devRef .tc main_v1) = _
  after_results_simp <;> rfl
/-- The destination endpoints: row 1 of the edge list. -/
theorem W1_dst (c : Dev nD) : @Eq (Arr Ideal S800000 .i32) (W1 m ρ c (Proc.devRef .tc main_v3)) (val_main_v3 (argE m c)) := by
  show StableHlo.after hostOps0 (W0 m ρ c) (Proc.devRef .tc main_v3) = _
  after_results_simp <;> rfl
/-- The coefficient column d(src)^(-1/2) · d(dst)^(-1/2), d the in-degree plus one: the kernel reshapes the vector,
    the reference broadcasts it along axis 0. -/
theorem W1_coef (c : Dev nD) : @Eq (Arr Ideal S800000x1 .f32) (W1 m ρ c (Proc.devRef .tc main_v26)) (val_main_v34 (argE m c)) := by
  refine Eq.trans ?_ (ColumnForms.col800000 (val_main_v26 (F := Ideal) (argE m c)) shapeCasts_S800000_S800000x1)
  show StableHlo.after hostOps0 (W0 m ρ c) (Proc.devRef .tc main_v26) = _
  after_results_simp <;> rfl
/-- The self-loop column d^(-1/2) · d^(-1/2). -/
theorem W1_selfc (c : Dev nD) : @Eq (Arr Ideal S50000x1 .f32) (W1 m ρ c (Proc.devRef .tc main_v28)) (val_main_v41 (argE m c)) := by
  refine Eq.trans ?_ (ColumnForms.col50000 (val_main_v40 (F := Ideal) (argE m c)) shapeCasts_S50000_S50000x1)
  show StableHlo.after hostOps0 (W0 m ρ c) (Proc.devRef .tc main_v28) = _
  after_results_simp <;> rfl

end Cert.KernelIdeal.Chain

end
-- ==== Proof.Carried.lean ====
import proofs.«105802_j5342939316732_1_alg».proof.Proof.Boundary1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.GenP Cert.Ops Cert.ReferenceIdeal.Read

variable (m : (ℓ : Loc nD τ sig) → Buf (Elt Ideal) ℓ) (ρ : Dev nD → PrngReg)

/-! A region writes only its output array, a host stretch only its own results: an array that is neither is found at the
    next boundary as it was at the one before. Through a region: the boundary's contents away from the region's arrays,
    or, for an array the region only reads, the input window's array unchanged by the write-backs; through a stretch:
    every operation's result read at another buffer. -/

theorem W2_src (c : Dev nD) : @Eq (Arr Ideal S800000 .i32) (W2 m ρ c (Proc.devRef .tc main_v1)) (val_main_v1 (argE m c)) :=
  (W2_of_ne m ρ c main_v1 (by decide)).trans (W1_src m ρ c)
theorem W3_src (c : Dev nD) : @Eq (Arr Ideal S800000 .i32) (W3 m ρ c (Proc.devRef .tc main_v1)) (val_main_v1 (argE m c)) := by
  show StableHlo.after hostOps1 (W2 m ρ c) (Proc.devRef .tc main_v1) = _
  after_results_simp
  exact W2_src m ρ c
theorem W4_src (c : Dev nD) : @Eq (Arr Ideal S800000 .i32) (W4 m ρ c (Proc.devRef .tc main_v1)) (val_main_v1 (argE m c)) :=
  (W4_of_ne m ρ c main_v1 (by decide)).trans (W3_src m ρ c)
theorem W5_src (c : Dev nD) : @Eq (Arr Ideal S800000 .i32) (W5 m ρ c (Proc.devRef .tc main_v1)) (val_main_v1 (argE m c)) := by
  show StableHlo.after hostOps2 (W4 m ρ c) (Proc.devRef .tc main_v1) = _
  after_results_simp
  exact W4_src m ρ c
theorem W6_src (c : Dev nD) : @Eq (Arr Ideal S800000 .i32) (W6 m ρ c (Proc.devRef .tc main_v1)) (val_main_v1 (argE m c)) :=
  (W6_of_ne m ρ c main_v1 (by decide)).trans (W5_src m ρ c)
theorem W7_src (c : Dev nD) : @Eq (Arr Ideal S800000 .i32) (W7 m ρ c (Proc.devRef .tc main_v1)) (val_main_v1 (argE m c)) :=
  (W7_of_ne m ρ c main_v1 (by decide)).trans (W6_src m ρ c)

theorem W2_dst (c : Dev nD) : @Eq (Arr Ideal S800000 .i32) (W2 m ρ c (Proc.devRef .tc main_v3)) (val_main_v3 (argE m c)) :=
  (W2_of_ne m ρ c main_v3 (by decide)).trans (W1_dst m ρ c)
theorem W3_dst (c : Dev nD) : @Eq (Arr Ideal S800000 .i32) (W3 m ρ c (Proc.devRef .tc main_v3)) (val_main_v3 (argE m c)) := by
  show StableHlo.after hostOps1 (W2 m ρ c) (Proc.devRef .tc main_v3) = _
  after_results_simp
  exact W2_dst m ρ c
theorem W4_dst (c : Dev nD) : @Eq (Arr Ideal S800000 .i32) (W4 m ρ c (Proc.devRef .tc main_v3)) (val_main_v3 (argE m c)) :=
  (W4_of_ne m ρ c main_v3 (by decide)).trans (W3_dst m ρ c)
theorem W5_dst (c : Dev nD) : @Eq (Arr Ideal S800000 .i32) (W5 m ρ c (Proc.devRef .tc main_v3)) (val_main_v3 (argE m c)) := by
  show StableHlo.after hostOps2 (W4 m ρ c) (Proc.devRef .tc main_v3) = _
  after_results_simp
  exact W4_dst m ρ c
theorem W6_dst (c : Dev nD) : @Eq (Arr Ideal S800000 .i32) (W6 m ρ c (Proc.devRef .tc main_v3)) (val_main_v3 (argE m c)) :=
  (W6_of_ne m ρ c main_v3 (by decide)).trans (W5_dst m ρ c)
theorem W7_dst (c : Dev nD) : @Eq (Arr Ideal S800000 .i32) (W7 m ρ c (Proc.devRef .tc main_v3)) (val_main_v3 (argE m c)) :=
  (W7_of_ne m ρ c main_v3 (by decide)).trans (W6_dst m ρ c)
theorem W8_dst (c : Dev nD) : @Eq (Arr Ideal S800000 .i32) (W8 m ρ c (Proc.devRef .tc main_v3)) (val_main_v3 (argE m c)) := by
  show StableHlo.after hostOps4 (W7 m ρ c) (Proc.devRef .tc main_v3) = _
  after_results_simp
  exact W7_dst m ρ c
theorem W9_dst (c : Dev nD) : @Eq (Arr Ideal S800000 .i32) (W9 m ρ c (Proc.devRef .tc main_v3)) (val_main_v3 (argE m c)) :=
  (W9_of_ne m ρ c main_v3 (by decide)).trans (W8_dst m ρ c)

theorem W2_coef (c : Dev nD) : @Eq (Arr Ideal S800000x1 .f32) (W2 m ρ c (Proc.devRef .tc main_v26)) (val_main_v34 (argE m c)) :=
  (W2_of_ne m ρ c main_v26 (by decide)).trans (W1_coef m ρ c)
theorem W3_coef (c : Dev nD) : @Eq (Arr Ideal S800000x1 .f32) (W3 m ρ c (Proc.devRef .tc main_v26)) (val_main_v34 (argE m c)) := by
  show StableHlo.after hostOps1 (W2 m ρ c) (Proc.devRef .tc main_v26) = _
  after_results_simp
  exact W2_coef m ρ c
theorem W4_coef (c : Dev nD) : @Eq (Arr Ideal S800000x1 .f32) (W4 m ρ c (Proc.devRef .tc main_v26)) (val_main_v34 (argE m c)) :=
  (W4_arr m ρ c 1).trans ((((dat1 (V3 m ρ) c).arrAt_in 1 rfl _).trans (A_eq1 (V3 m ρ) c 1)).trans (W3_coef m ρ c))
theorem W5_coef (c : Dev nD) : @Eq (Arr Ideal S800000x1 .f32) (W5 m ρ c (Proc.devRef .tc main_v26)) (val_main_v34 (argE m c)) := by
  show StableHlo.after hostOps2 (W4 m ρ c) (Proc.devRef .tc main_v26) = _
  after_results_simp
  exact W4_coef m ρ c
theorem W6_coef (c : Dev nD) : @Eq (Arr Ideal S800000x1 .f32) (W6 m ρ c (Proc.devRef .tc main_v26)) (val_main_v34 (argE m c)) :=
  (W6_of_ne m ρ c main_v26 (by decide)).trans (W5_coef m ρ c)
theorem W7_coef (c : Dev nD) : @Eq (Arr Ideal S800000x1 .f32) (W7 m ρ c (Proc.devRef .tc main_v26)) (val_main_v34 (argE m c)) :=
  (W7_of_ne m ρ c main_v26 (by decide)).trans (W6_coef m ρ c)
theorem W8_coef (c : Dev nD) : @Eq (Arr Ideal S800000x1 .f32) (W8 m ρ c (Proc.devRef .tc main_v26)) (val_main_v34 (argE m c)) := by
  show StableHlo.after hostOps4 (W7 m ρ c) (Proc.devRef .tc main_v26) = _
  after_results_simp
  exact W7_coef m ρ c

theorem W2_selfc (c : Dev nD) : @Eq (Arr Ideal S50000x1 .f32) (W2 m ρ c (Proc.devRef .tc main_v28)) (val_main_v41 (argE m c)) :=
  (W2_of_ne m ρ c main_v28 (by decide)).trans (W1_selfc m ρ c)
theorem W3_selfc (c : Dev nD) : @Eq (Arr Ideal S50000x1 .f32) (W3 m ρ c (Proc.devRef .tc main_v28)) (val_main_v41 (argE m c)) := by
  show StableHlo.after hostOps1 (W2 m ρ c) (Proc.devRef .tc main_v28) = _
  after_results_simp
  exact W2_selfc m ρ c
theorem W4_selfc (c : Dev nD) : @Eq (Arr Ideal S50000x1 .f32) (W4 m ρ c (Proc.devRef .tc main_v28)) (val_main_v41 (argE m c)) :=
  (W4_of_ne m ρ c main_v28 (by decide)).trans (W3_selfc m ρ c)
theorem W5_selfc (c : Dev nD) : @Eq (Arr Ideal S50000x1 .f32) (W5 m ρ c (Proc.devRef .tc main_v28)) (val_main_v41 (argE m c)) := by
  show StableHlo.after hostOps2 (W4 m ρ c) (Proc.devRef .tc main_v28) = _
  after_results_simp
  exact W4_selfc m ρ c
theorem W6_selfc (c : Dev nD) : @Eq (Arr Ideal S50000x1 .f32) (W6 m ρ c (Proc.devRef .tc main_v28)) (val_main_v41 (argE m c)) :=
  (W6_arr m ρ c 2).trans ((((dat2 (V5 m ρ) c).arrAt_in 2 rfl _).trans (A_eq2 (V5 m ρ) c 2)).trans (W5_selfc m ρ c))
theorem W7_selfc (c : Dev nD) : @Eq (Arr Ideal S50000x1 .f32) (W7 m ρ c (Proc.devRef .tc main_v28)) (val_main_v41 (argE m c)) :=
  (W7_of_ne m ρ c main_v28 (by decide)).trans (W6_selfc m ρ c)
theorem W8_selfc (c : Dev nD) : @Eq (Arr Ideal S50000x1 .f32) (W8 m ρ c (Proc.devRef .tc main_v28)) (val_main_v41 (argE m c)) := by
  show StableHlo.after hostOps4 (W7 m ρ c) (Proc.devRef .tc main_v28) = _
  after_results_simp
  exact W7_selfc m ρ c
theorem W9_selfc (c : Dev nD) : @Eq (Arr Ideal S50000x1 .f32) (W9 m ρ c (Proc.devRef .tc main_v28)) (val_main_v41 (argE m c)) :=
  (W9_of_ne m ρ c main_v28 (by decide)).trans (W8_selfc m ρ c)
theorem W10_selfc (c : Dev nD) : @Eq (Arr Ideal S50000x1 .f32) (W10 m ρ c (Proc.devRef .tc main_v28)) (val_main_v41 (argE m c)) := by
  show StableHlo.after hostOps5 (W9 m ρ c) (Proc.devRef .tc main_v28) = _
  after_results_simp
  exact W9_selfc m ρ c

theorem W2_Ba (c : Dev nD) : @Eq (Arr Ideal S128 .f32) (W2 m ρ c (Proc.devRef .tc main_arg3)) (argBa m c) :=
  (W2_of_ne m ρ c main_arg3 (by decide)).trans (W1_Ba m ρ c)
theorem W3_Ba (c : Dev nD) : @Eq (Arr Ideal S128 .f32) (W3 m ρ c (Proc.devRef .tc main_arg3)) (argBa m c) := by
  show StableHlo.after hostOps1 (W2 m ρ c) (Proc.devRef .tc main_arg3) = _
  after_results_simp
  exact W2_Ba m ρ c
theorem W4_Ba (c : Dev nD) : @Eq (Arr Ideal S128 .f32) (W4 m ρ c (Proc.devRef .tc main_arg3)) (argBa m c) :=
  (W4_of_ne m ρ c main_arg3 (by decide)).trans (W3_Ba m ρ c)

theorem W2_Wb (c : Dev nD) : @Eq (Arr Ideal S128x64 .f32) (W2 m ρ c (Proc.devRef .tc main_arg4)) (argWb m c) :=
  (W2_of_ne m ρ c main_arg4 (by decide)).trans (W1_Wb m ρ c)
theorem W3_Wb (c : Dev nD) : @Eq (Arr Ideal S128x64 .f32) (W3 m ρ c (Proc.devRef .tc main_arg4)) (argWb m c) := by
  show StableHlo.after hostOps1 (W2 m ρ c) (Proc.devRef .tc main_arg4) = _
  after_results_simp
  exact W2_Wb m ρ c
theorem W4_Wb (c : Dev nD) : @Eq (Arr Ideal S128x64 .f32) (W4 m ρ c (Proc.devRef .tc main_arg4)) (argWb m c) :=
  (W4_of_ne m ρ c main_arg4 (by decide)).trans (W3_Wb m ρ c)
theorem W5_Wb (c : Dev nD) : @Eq (Arr Ideal S128x64 .f32) (W5 m ρ c (Proc.devRef .tc main_arg4)) (argWb m c) := by
  show StableHlo.after hostOps2 (W4 m ρ c) (Proc.devRef .tc main_arg4) = _
  after_results_simp
  exact W4_Wb m ρ c
theorem W6_Wb (c : Dev nD) : @Eq (Arr Ideal S128x64 .f32) (W6 m ρ c (Proc.devRef .tc main_arg4)) (argWb m c) :=
  (W6_of_ne m ρ c main_arg4 (by decide)).trans (W5_Wb m ρ c)

theorem W2_Bb (c : Dev nD) : @Eq (Arr Ideal S64 .f32) (W2 m ρ c (Proc.devRef .tc main_arg5)) (argBb m c) :=
  (W2_of_ne m ρ c main_arg5 (by decide)).trans (W1_Bb m ρ c)
theorem W3_Bb (c : Dev nD) : @Eq (Arr Ideal S64 .f32) (W3 m ρ c (Proc.devRef .tc main_arg5)) (argBb m c) := by
  show StableHlo.after hostOps1 (W2 m ρ c) (Proc.devRef .tc main_arg5) = _
  after_results_simp
  exact W2_Bb m ρ c
theorem W4_Bb (c : Dev nD) : @Eq (Arr Ideal S64 .f32) (W4 m ρ c (Proc.devRef .tc main_arg5)) (argBb m c) :=
  (W4_of_ne m ρ c main_arg5 (by decide)).trans (W3_Bb m ρ c)
theorem W5_Bb (c : Dev nD) : @Eq (Arr Ideal S64 .f32) (W5 m ρ c (Proc.devRef .tc main_arg5)) (argBb m c) := by
  show StableHlo.after hostOps2 (W4 m ρ c) (Proc.devRef .tc main_arg5) = _
  after_results_simp
  exact W4_Bb m ρ c
theorem W6_Bb (c : Dev nD) : @Eq (Arr Ideal S64 .f32) (W6 m ρ c (Proc.devRef .tc main_arg5)) (argBb m c) :=
  (W6_of_ne m ρ c main_arg5 (by decide)).trans (W5_Bb m ρ c)
theorem W7_Bb (c : Dev nD) : @Eq (Arr Ideal S64 .f32) (W7 m ρ c (Proc.devRef .tc main_arg5)) (argBb m c) :=
  (W7_of_ne m ρ c main_arg5 (by decide)).trans (W6_Bb m ρ c)
theorem W8_Bb (c : Dev nD) : @Eq (Arr Ideal S64 .f32) (W8 m ρ c (Proc.devRef .tc main_arg5)) (argBb m c) := by
  show StableHlo.after hostOps4 (W7 m ρ c) (Proc.devRef .tc main_arg5) = _
  after_results_simp
  exact W7_Bb m ρ c
theorem W9_Bb (c : Dev nD) : @Eq (Arr Ideal S64 .f32) (W9 m ρ c (Proc.devRef .tc main_arg5)) (argBb m c) :=
  (W9_of_ne m ρ c main_arg5 (by decide)).trans (W8_Bb m ρ c)

end Cert.KernelIdeal.Chain

end
-- ==== Proof.StageDot128.lean ====
/-
  Region 0: five row blocks of [10000,128] each times the whole [128,128] weight; the array the region leaves is x · W₁.
-/
import proofs.«105802_j5342939316732_1_alg».proof.Proof.KernelIdealFrame
import proofs.«105802_j5342939316732_1_alg».proof.Proof.DenseStages
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Dot128

open Cert.KernelIdeal Cert.KernelIdeal.Gen Cert.KernelIdeal.GenP Cert.Ops

variable (V : (c : Dev nD) → (b : Ref sig .tc) → Buf (Elt Ideal) ((c : Thread nD τ).loc b))

theorem zero_offsets : (![0, 0] : Fin 2 → Nat) = fun _ => 0 := funext fun a => by fin_cases a <;> rfl

/-! ## The reference's product x · W₁ at an index -/

theorem lhs_ref_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhs_ref_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhs_ref_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhs_ref_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- Row r, column k of the [50000,128] operand. -/
abbrev rowAt (r : Fin 50000) (k : Fin 128) : S50000x128.Idx := fun a => match a with
  | ⟨0, _⟩ => r
  | ⟨1, _⟩ => k
/-- Row k, column q of the [128,128] weight. -/
abbrev wAt (k : Fin 128) (q : Fin 128) : S128x128.Idx := fun a => match a with
  | ⟨0, _⟩ => k
  | ⟨1, _⟩ => q

/-- Entry (r, q) of x · W₁ is Σₖ x[r,k] · W₁[k,q]. -/
theorem dot128_apply (x : Arr Ideal S50000x128 .f32) (w : Arr Ideal S128x128 .f32) (i : S50000x128.Idx) :
    dot128 (F := Ideal) x w i = ∑ k : Fin 128, x (rowAt (i 0) k) * w (wAt k (i 1)) := by
  unfold dot128
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = rowAt (i 0) k := funext fun a => Fin.ext (by
    match a with
    | ⟨0, _⟩ => exact lhs_ref_0 _ _
    | ⟨1, _⟩ => exact (lhs_ref_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = wAt k (i 1) := funext fun a => Fin.ext (by
    match a with
    | ⟨0, _⟩ => exact (rhs_ref_0 _ _).trans hk
    | ⟨1, _⟩ => exact rhs_ref_1 _ _)
  rw [el, er]

/-! ## The kernel's product of one row block at an index -/

theorem lhs_ker_0 (i : S10000x128.Idx) (q : Cert.KernelIdeal.dot_S10000x128_S128x128_S10000x128_1_0_0_1_n_n.contr.Idx) :
    (Cert.KernelIdeal.dot_S10000x128_S128x128_S10000x128_1_0_0_1_n_n.lhsIdx i q 0).val = (i 0).val := by
  unfold DotDims.lhsIdx
  rw [dif_neg (show ¬(0 : Fin S10000x128.rank) ∈ Cert.KernelIdeal.dot_S10000x128_S128x128_S10000x128_1_0_0_1_n_n.lhsBatch by decide), dif_pos (show (0 : Fin S10000x128.rank) ∈ Cert.KernelIdeal.dot_S10000x128_S128x128_S10000x128_1_0_0_1_n_n.lhsNonContracting by decide)]
  rfl
theorem lhs_ker_1 (i : S10000x128.Idx) (q : Cert.KernelIdeal.dot_S10000x128_S128x128_S10000x128_1_0_0_1_n_n.contr.Idx) :
    (Cert.KernelIdeal.dot_S10000x128_S128x128_S10000x128_1_0_0_1_n_n.lhsIdx i q 1).val = (q ⟨0, by decide⟩).val :=
  Cert.KernelIdeal.dot_S10000x128_S128x128_S10000x128_1_0_0_1_n_n.lhsIdx_val_of_single rfl i q
theorem rhs_ker_0 (i : S10000x128.Idx) (q : Cert.KernelIdeal.dot_S10000x128_S128x128_S10000x128_1_0_0_1_n_n.contr.Idx) :
    (Cert.KernelIdeal.dot_S10000x128_S128x128_S10000x128_1_0_0_1_n_n.rhsIdx i q 0).val = (q ⟨0, by decide⟩).val :=
  Cert.KernelIdeal.dot_S10000x128_S128x128_S10000x128_1_0_0_1_n_n.rhsIdx_val_of_single rfl i q
theorem rhs_ker_1 (i : S10000x128.Idx) (q : Cert.KernelIdeal.dot_S10000x128_S128x128_S10000x128_1_0_0_1_n_n.contr.Idx) :
    (Cert.KernelIdeal.dot_S10000x128_S128x128_S10000x128_1_0_0_1_n_n.rhsIdx i q 1).val = (i 1).val := by
  unfold DotDims.rhsIdx
  rw [dif_neg (show ¬(1 : Fin S128x128.rank) ∈ Cert.KernelIdeal.dot_S10000x128_S128x128_S10000x128_1_0_0_1_n_n.rhsBatch by decide), dif_pos (show (1 : Fin S128x128.rank) ∈ Cert.KernelIdeal.dot_S10000x128_S128x128_S10000x128_1_0_0_1_n_n.rhsNonContracting by decide)]
  rfl

/-- Row r, column k of a [10000,128] row block. -/
abbrev blkAt (r : Fin 10000) (k : Fin 128) : S10000x128.Idx := fun a => match a with
  | ⟨0, _⟩ => r
  | ⟨1, _⟩ => k

/-- Entry (r, q) of the body's product of a loaded row block xb and the loaded weight: Σₖ xb[r,k] · W₁[k,q]
    (the cut to bf16 is the identity on the ideal values, and the accumulator is zero). -/
theorem block_product_apply (xb : Vec Ideal S10000x128 .f32) (w : Vec Ideal S128x128 .f32) (j : S10000x128.Idx) :
    k0_pay1 (F := Ideal) xb w j = ∑ k : Fin 128, xb (blkAt (j 0) k) * w (wAt k (j 1)) := by
  unfold k0_pay1
  simp only [matmul]
  rw [Ideal.matmul_constant_zero_apply, ← Equiv.sum_comp (ValueIdx.contrEquiv1 Cert.KernelIdeal.dot_S10000x128_S128x128_S10000x128_1_0_0_1_n_n 128 rfl rfl).symm]
  refine Finset.sum_congr rfl fun k _ => ?_
  have hk := ValueIdx.contrEquiv1_symm_val Cert.KernelIdeal.dot_S10000x128_S128x128_S10000x128_1_0_0_1_n_n 128 rfl rfl k
  have el : Cert.KernelIdeal.dot_S10000x128_S128x128_S10000x128_1_0_0_1_n_n.lhsIdx j ((ValueIdx.contrEquiv1 Cert.KernelIdeal.dot_S10000x128_S128x128_S10000x128_1_0_0_1_n_n 128 rfl rfl).symm k) = blkAt (j 0) k := funext fun a => Fin.ext (by
    match a with
    | ⟨0, _⟩ => exact lhs_ker_0 _ _
    | ⟨1, _⟩ => exact (lhs_ker_1 _ _).trans hk)
  have er : Cert.KernelIdeal.dot_S10000x128_S128x128_S10000x128_1_0_0_1_n_n.rhsIdx j ((ValueIdx.contrEquiv1 Cert.KernelIdeal.dot_S10000x128_S128x128_S10000x128_1_0_0_1_n_n 128 rfl rfl).symm k) = wAt k (j 1) := funext fun a => Fin.ext (by
    match a with
    | ⟨0, _⟩ => exact (rhs_ker_0 _ _).trans hk
    | ⟨1, _⟩ => exact rhs_ker_1 _ _)
  rw [el, er]
  rfl

/-! ## From the row blocks to the array -/

/-- The blocks' index maps over the five points: the input row block moves with the output row block, point t at
    block t; the weight's one block is block (0, 0); every column index is 0. -/
theorem block_indices : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The input window's block at point t, at row r and column k of the block, is the array at row 10000·t + r, column k. -/
theorem rows_block_apply (c : Dev nD) (t : Fin cfg0.N) (j : S10000x128.Idx) (i : S50000x128.Idx)
    (h0 : (i 0).val = 10000 * t.val + (j 0).val) (h1 : (i 1).val = (j 1).val) :
    (iblk0 V c 0 t : Vec Ideal S10000x128 .f32) j = (V c main_arg0 : Arr Ideal S50000x128 .f32) i := by
  obtain ⟨-, -, e0, e1, -, -⟩ := block_indices t
  unfold iblk0
  rw [View.read_apply]
  show V c main_arg0 _ = V c main_arg0 _
  congr 1
  funext a
  apply Fin.ext
  match a with
  | ⟨0, _⟩ => show win0_0.index t (0 : Fin 2) * 10000 + 1 * (j 0).val = (i 0).val; rw [e0, h0]; omega
  | ⟨1, _⟩ => show win0_0.index t (1 : Fin 2) * 128 + 1 * (j 1).val = (i 1).val; rw [e1, h1]; omega

/-- The weight window's block at every point is the whole weight array. -/
theorem weight_block_apply (c : Dev nD) (t : Fin cfg0.N) (j : S128x128.Idx) :
    (iblk0 V c 1 t : Vec Ideal S128x128 .f32) j = (V c main_arg2 : Arr Ideal S128x128 .f32) j := by
  obtain ⟨-, -, -, -, e0, e1⟩ := block_indices t
  unfold iblk0
  rw [View.read_apply]
  show V c main_arg2 _ = V c main_arg2 _
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- What point t writes back is row block t of x · W₁. -/
theorem written_back_eq (c : Dev nD) (t : Fin cfg0.N) :
    (dat0 V c).flushed 2 t = ((cfg0.win 2).blk t).view.read (Elt Ideal) (dot128 (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, -, -, -, -⟩ := block_indices t
  funext j
  rw [View.read_apply]
  show k0_pay1 (F := Ideal) (iblk0 V c 0 t) (iblk0 V c 1 t) j = dot128 (F := Ideal) (V c main_arg0) (V c main_arg2) (((cfg0.win 2).blk t).view.emb j)
  rw [block_product_apply, dot128_apply]
  refine Finset.sum_congr rfl fun k _ => ?_
  have hj0 : (j 0).val < 10000 := (j 0).isLt
  have hr : ((((cfg0.win 2).blk t).view.emb j) 0).val = 10000 * t.val + (j 0).val := by
    show win0_2.index t (0 : Fin 2) * 10000 + 1 * (j 0).val = _; rw [e0]; omega
  have hq : ((((cfg0.win 2).blk t).view.emb j) 1).val = (j 1).val := by
    show win0_2.index t (1 : Fin 2) * 128 + 1 * (j 1).val = _; rw [e1]; omega
  rw [rows_block_apply V c t (blkAt (j 0) k) (rowAt ((((cfg0.win 2).blk t).view.emb j) 0) k) hr rfl, weight_block_apply V c t]
  congr 2
  funext a
  apply Fin.ext
  match a with
  | ⟨0, _⟩ => rfl
  | ⟨1, _⟩ => exact hq.symm

/-- An index of the array is in point t's block iff each coordinate is in the block's range on its axis. -/
theorem mem_row_block (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v29).slice (win0_2.rect t)).set ↔ _
  rw [View.set_slice_whole, Rect.mem_set_unit]
  exact Iff.rfl

/-- Row r of the array lies in the block of point r / 10000, and every point writes its block back. -/
theorem row_blocks_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  refine ⟨⟨(i 0).val / 10000, by rw [hN]; omega⟩, flush0_2 _, ?_⟩
  rw [mem_row_block]
  obtain ⟨e0, e1, -, -, -, -⟩ := block_indices ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e0]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e1]; omega

/-- The array the region leaves is x · W₁: every point's write-back is its row block of the product, and the five row
    blocks fill the array. -/
theorem final0 (c : Dev nD) :
    @Eq (Arr Ideal S50000x128 .f32) ((dat0 V c).arrAt 2 cfg0.N) (dot128 (F := Ideal) (V c main_arg0) (V c main_arg2)) :=
  (dat0 V c).arrAt_eq_of_cover 2 (dot128 (F := Ideal) (V c main_arg0) (V c main_arg2)) (fun t _ => written_back_eq V c t) row_blocks_cover

end Cert.KernelIdeal.Dot128

end
-- ==== Proof.StageScale128.lean ====
/-
  Region 1: eighty row blocks of [10000,128] gathered features, each row times its edge's coefficient.
  Point t reads rows 10000·t … 10000·t + 9999 of the features and of the coefficient column and writes the same rows
  of the result: entry (r, q) of its block is feature (10000·t + r, q) times coefficient (10000·t + r, 0). Row r of the
  array lies in the block of point r / 10000 and every point writes back, so the array the region leaves is the
  whole-array scaling of the features by the column.
-/
import proofs.«105802_j5342939316732_1_alg».proof.Proof.KernelIdealFrame
import proofs.«105802_j5342939316732_1_alg».proof.Proof.DenseStages
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Scale128

open Cert.KernelIdeal Cert.KernelIdeal.Gen Cert.KernelIdeal.GenP Cert.Ops

variable (V : (c : Dev nD) → (b : Ref sig .tc) → Buf (Elt Ideal) ((c : Thread nD τ).loc b))

/-- The one store and the two loads sit at offset zero on both axes. -/
theorem zero_offsets : (![0, 0] : Fin 2 → Nat) = fun _ => 0 := funext fun a => by fin_cases a <;> rfl

/-- Over the eighty points: each of the three windows is at row block `t`, column block 0. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's product at an index: the block's entry times the column's entry of the same row. -/
theorem product_apply (x0 : Vec Ideal S10000x128 .f32) (x1 : Vec Ideal S10000x1 .f32) (j : S10000x128.Idx) (k : S10000x1.Idx)
    (hk0 : (k 0).val = (j 0).val) (hk1 : (k 1).val = 0) :
    k1_pay1 x0 x1 j = x0 j * x1 k := by
  unfold k1_pay1
  show mulf (F := Ideal) (shapeCast S10000x128 (x0 : FVec Ideal S10000x128 .f32) shapeCasts_S10000x128_S10000x128)
      (broadcastTo S10000x128 (shapeCast S10000x1 (x1 : FVec Ideal S10000x1 .f32) shapeCasts_S10000x1_S10000x1) broadcasts_S10000x1_S10000x128) j = _
  rw [ValueIdx.mulf_apply, shapeCast_self, shapeCast_self]
  rw [broadcastTo_apply x1 broadcasts_S10000x1_S10000x128 j k (fun a => by
    match a with
    | ⟨0, _⟩ => exact hk0
    | ⟨1, _⟩ => exact hk1)]

/-- The whole-array scaling at an index: the entry times the column's entry of the same row. -/
theorem scale128_apply (a : Arr Ideal S800000x128 .f32) (b : Arr Ideal S800000x1 .f32) (i : S800000x128.Idx) (k : S800000x1.Idx)
    (hk0 : (k 0).val = (i 0).val) (hk1 : (k 1).val = 0) :
    scale128 (F := Ideal) a b i = a i * b k := by
  unfold scale128
  rw [ValueIdx.mulf_apply]
  rw [broadcastInDim_apply _ _ b i k (fun a => by
    match a with
    | ⟨0, _⟩ => exact hk0
    | ⟨1, _⟩ => exact hk1)]

/-- Point `t`'s block of the features, at `j`: the array at row `10000 t + j₀`, column `j₁`. -/
theorem feature_block_apply (c : Dev nD) (t : Fin cfg1.N) (j : S10000x128.Idx) (i : S800000x128.Idx)
    (h0 : (i 0).val = t.val * 10000 + (j 0).val) (h1 : (i 1).val = (j 1).val) :
    (iblk1 V c 0 t : Vec Ideal S10000x128 .f32) j = (V c main_v36 : Arr Ideal S800000x128 .f32) i := by
  obtain ⟨e0, e1, -⟩ := block_index t
  unfold iblk1
  rw [View.read_apply]
  show (V c main_v36 : Arr Ideal S800000x128 .f32) _ = (V c main_v36 : Arr Ideal S800000x128 .f32) _
  congr 1
  funext a; apply Fin.ext
  match a with
  | ⟨0, _⟩ => show win1_0.index t (0 : Fin 2) * 10000 + 1 * (j 0).val = (i 0).val; omega
  | ⟨1, _⟩ => show win1_0.index t (1 : Fin 2) * 128 + 1 * (j 1).val = (i 1).val; omega

/-- Point `t`'s block of the coefficient column, at row `k₀`: the column at row `10000 t + k₀`. -/
theorem coef_block_apply (c : Dev nD) (t : Fin cfg1.N) (k : S10000x1.Idx) (i : S800000x1.Idx)
    (h0 : (i 0).val = t.val * 10000 + (k 0).val) :
    (iblk1 V c 1 t : Vec Ideal S10000x1 .f32) k = (V c main_v26 : Arr Ideal S800000x1 .f32) i := by
  obtain ⟨-, -, e2, e3, -⟩ := block_index t
  have hk : (k 1).val < 1 := (k 1).isLt
  have hi : (i 1).val < 1 := (i 1).isLt
  unfold iblk1
  rw [View.read_apply]
  show (V c main_v26 : Arr Ideal S800000x1 .f32) _ = (V c main_v26 : Arr Ideal S800000x1 .f32) _
  congr 1
  funext a; apply Fin.ext
  match a with
  | ⟨0, _⟩ => show win1_1.index t (0 : Fin 2) * 10000 + 1 * (k 0).val = (i 0).val; omega
  | ⟨1, _⟩ => show win1_1.index t (1 : Fin 2) * 1 + 1 * (k 1).val = (i 1).val; omega

/-- What point `t` leaves in its output block, entry by entry: where the block's entry `j` sits at `i` of the array,
    the scaled features at `i`. -/
theorem block_entry (c : Dev nD) (t : Fin cfg1.N) (j : S10000x128.Idx) (i : S800000x128.Idx)
    (h0 : (i 0).val = t.val * 10000 + (j 0).val) (h1 : (i 1).val = (j 1).val) :
    k1_pay1 (iblk1 V c 0 t) (iblk1 V c 1 t) j = scale128 (F := Ideal) (V c main_v36) (V c main_v26) i := by
  have hj : (j 0).val < 10000 := (j 0).isLt
  have hi : (i 0).val < 800000 := (i 0).isLt
  rw [product_apply _ _ j (ValueIdx.ix2 (⟨(j 0).val, hj⟩ : Fin 10000) (⟨0, Nat.one_pos⟩ : Fin 1)) rfl rfl,
    scale128_apply _ _ i (ValueIdx.ix2 (⟨(i 0).val, hi⟩ : Fin 800000) (⟨0, Nat.one_pos⟩ : Fin 1)) rfl rfl,
    feature_block_apply V c t j i h0 h1,
    coef_block_apply V c t _ (ValueIdx.ix2 (⟨(i 0).val, hi⟩ : Fin 800000) (⟨0, Nat.one_pos⟩ : Fin 1)) h0]

/-- What point `t` writes back is block `t` of the scaled features. -/
theorem flushed_rows (c : Dev nD) (t : Fin cfg1.N) :
    (dat1 V c).flushed 2 t = ((cfg1.win 2).blk t).view.read (Elt Ideal) (scale128 (F := Ideal) (V c main_v36) (V c main_v26)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S10000x1) zero_offsets]
  obtain ⟨-, -, -, -, e4, e5⟩ := block_index t
  refine funext fun (j : S10000x128.Idx) => ?_
  show k1_pay1 (iblk1 V c 0 t) (iblk1 V c 1 t) j
    = scale128 (F := Ideal) (V c main_v36) (V c main_v26) (((cfg1.win 2).blk t).view.emb j)
  refine block_entry V c t j _ ?_ ?_
  · show win1_2.index t (0 : Fin 2) * 10000 + 1 * (j 0).val = t.val * 10000 + (j 0).val; omega
  · show win1_2.index t (1 : Fin 2) * 128 + 1 * (j 1).val = (j 1).val; omega

/-- An index of the array is in point `t`'s block iff each coordinate is in the block's range on its axis. -/
theorem mem_block (t : Fin cfg1.N) (i : S800000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v37).slice (win1_2.rect t)).set ↔ _
  rw [View.set_slice_whole, Rect.mem_set_unit]
  exact Iff.rfl

/-- Row `r` of the array is in the block of point `r / 10000`, and every point writes back. -/
theorem rows_covered (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  have hN : cfg1.N = 80 := N_1
  have hq : (i 0).val / 10000 < cfg1.N := by omega
  obtain ⟨-, -, -, -, e4, e5⟩ := block_index ⟨(i 0).val / 10000, hq⟩
  have e4' : win1_2.index ⟨(i 0).val / 10000, hq⟩ (0 : Fin 2) = (i 0).val / 10000 := e4
  refine ⟨⟨(i 0).val / 10000, hq⟩, flush1_2 _, ?_⟩
  rw [mem_block]
  intro a
  match a with
  | ⟨0, _⟩ =>
    show win1_2.index ⟨(i 0).val / 10000, hq⟩ (0 : Fin 2) * 10000 ≤ (i 0).val
      ∧ (i 0).val < win1_2.index ⟨(i 0).val / 10000, hq⟩ (0 : Fin 2) * 10000 + 10000
    omega
  | ⟨1, _⟩ =>
    show win1_2.index ⟨(i 0).val / 10000, hq⟩ (1 : Fin 2) * 128 ≤ (i 1).val
      ∧ (i 1).val < win1_2.index ⟨(i 0).val / 10000, hq⟩ (1 : Fin 2) * 128 + 128
    omega

theorem final1 (c : Dev nD) :
    @Eq (Arr Ideal S800000x128 .f32) ((dat1 V c).arrAt 2 cfg1.N) (scale128 (F := Ideal) (V c main_v36) (V c main_v26)) :=
  (dat1 V c).arrAt_eq_of_cover 2 (scale128 (F := Ideal) (V c main_v36) (V c main_v26))
    (fun t _ => flushed_rows V c t) rows_covered

end Cert.KernelIdeal.Scale128

end
-- ==== Proof.StageCombine128.lean ====
/-
  Region 2: ten row blocks of [5000,128]; the array the region leaves is max(agg + h·s + b, 0).

  Point t of the grid takes rows 5000·t … 5000·t + 4999 of agg, h (128 wide) and of the column s, and the whole row b;
  it writes max(agg[r,l] + h[r,l]·s[r,0] + b[0,l], 0) at the same rows of the result. Read at an index, the body's
  value on block t at (r', l) and the whole-array function at (5000·t + r', l) are the same expression of the same
  four elements; the ten blocks tile the 50000 rows (row r lies in block r / 5000), and every point writes its block back.
-/
import proofs.«105802_j5342939316732_1_alg».proof.Proof.KernelIdealFrame
import proofs.«105802_j5342939316732_1_alg».proof.Proof.DenseStages
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx (mulf_apply addf_apply maximumf_apply broadcast_apply)

namespace Cert.KernelIdeal.Combine128

open Cert.KernelIdeal Cert.KernelIdeal.Gen Cert.KernelIdeal.GenP Cert.Ops

variable (V : (c : Dev nD) → (b : Ref sig .tc) → Buf (Elt Ideal) ((c : Thread nD τ).loc b))

/-- The body reads and writes each of its buffers from its first element: both offsets are zero. -/
theorem zero_offsets : (![0, 0] : Fin 2 → Nat) = fun _ => 0 := funext fun a => by fin_cases a <;> rfl

/-! ## The two sides at an index -/

/-- The body's value at (r, l) of a block: max(x0[r,l] + x1[r,l]·x2[r,0] + x3[0,l], 0). The column x2 is spread along
    the lanes and the row x3 along the rows; `js` and `jb` name the elements of them that (r, l) reads. -/
theorem body_apply (x0 x1 : Vec Ideal S5000x128 .f32) (x2 : Vec Ideal S5000x1 .f32) (x3 : Vec Ideal S1x128 .f32)
    (j : S5000x128.Idx) (js : S5000x1.Idx) (jb : S1x128.Idx)
    (hs0 : (js 0).val = (j 0).val) (hs1 : (js 1).val = 0) (hb0 : (jb 0).val = 0) (hb1 : (jb 1).val = (j 1).val) :
    k2_pay1 x0 x1 x2 x3 j = max (x0 j + x1 j * x2 js + x3 jb) (Ideal.ofBits .f32 0x00000000#32) := by
  unfold k2_pay1
  rw [maximumf_apply, addf_apply, addf_apply, mulf_apply, broadcast_apply]
  simp only [shapeCast_self]
  rw [broadcastTo_apply x2 _ j js (fun a => match a with
      | ⟨0, _⟩ => by show (js 0).val = if (5000 : Nat) = 1 then 0 else (j 0).val; rw [if_neg (by decide)]; exact hs0
      | ⟨1, _⟩ => by show (js 1).val = if (1 : Nat) = 1 then 0 else (j 1).val; rw [if_pos rfl]; exact hs1),
    broadcastTo_apply x3 _ j jb (fun a => match a with
      | ⟨0, _⟩ => by show (jb 0).val = if (1 : Nat) = 1 then 0 else (j 0).val; rw [if_pos rfl]; exact hb0
      | ⟨1, _⟩ => by show (jb 1).val = if (128 : Nat) = 1 then 0 else (j 1).val; rw [if_neg (by decide)]; exact hb1)]
  rfl

/-- The whole-array function at (r, l): max(agg[r,l] + h[r,l]·s[r,0] + b[0,l], 0), the zero being the same word as the
    body's, spread from a scalar. -/
theorem spec_apply (agg h : Arr Ideal S50000x128 .f32) (s : Arr Ideal S50000x1 .f32) (b : Arr Ideal S1x128 .f32)
    (i : S50000x128.Idx) (is : S50000x1.Idx) (ib : S1x128.Idx)
    (hs0 : (is 0).val = (i 0).val) (hs1 : (is 1).val = 0) (hb0 : (ib 0).val = 0) (hb1 : (ib 1).val = (i 1).val) :
    relu128 (F := Ideal) (combine128 (F := Ideal) agg h s b) i = max (agg i + h i * s is + b ib) (Ideal.ofBits .f32 0x00000000#32) := by
  unfold relu128 combine128
  rw [maximumf_apply, addf_apply, addf_apply, mulf_apply]
  rw [broadcastInDim_apply _ _ s i is (fun a => match a with
      | ⟨0, _⟩ => by show (is 0).val = if (50000 : Nat) = 1 then 0 else (i 0).val; rw [if_neg (by decide)]; exact hs0
      | ⟨1, _⟩ => by show (is 1).val = if (1 : Nat) = 1 then 0 else (i 1).val; rw [if_pos rfl]; exact hs1),
    broadcastInDim_apply _ _ b i ib (fun a => match a with
      | ⟨0, _⟩ => by show (ib 0).val = if (1 : Nat) = 1 then 0 else (i 0).val; rw [if_pos rfl]; exact hb0
      | ⟨1, _⟩ => by show (ib 1).val = if (128 : Nat) = 1 then 0 else (i 1).val; rw [if_neg (by decide)]; exact hb1)]
  rw [broadcastInDim_apply _ _ (constant (F := Ideal) Cert.ReferenceIdeal.S_ .f32 0x00000000#32) i (fun a => a.elim0) (fun a => a.elim0)]
  rfl

/-! ## Where each window's block lies -/

/-- The index maps over the ten points: the row blocks of agg, h and s move with the result's (block t at point t, one
    block across), and the row b is its one block at every point. -/
theorem block_indices : ∀ t : Fin cfg2.N,
    win2_0.index t (0 : Fin 2) = win2_4.index t (0 : Fin 2) ∧ win2_0.index t (1 : Fin 2) = win2_4.index t (1 : Fin 2)
    ∧ win2_1.index t (0 : Fin 2) = win2_4.index t (0 : Fin 2) ∧ win2_1.index t (1 : Fin 2) = win2_4.index t (1 : Fin 2)
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Block t of agg at (r', l) is agg at (block row · 5000 + r', block column · 128 + l). -/
theorem agg_block (c : Dev nD) (t : Fin cfg2.N) (j : S5000x128.Idx) (i : S50000x128.Idx)
    (h0 : (i 0).val = win2_0.index t 0 * 5000 + (j 0).val) (h1 : (i 1).val = win2_0.index t 1 * 128 + (j 1).val) :
    (iblk2 V c 0 t : Vec Ideal S5000x128 .f32) j = (V c main_v40 : Arr Ideal S50000x128 .f32) i := by
  unfold iblk2
  rw [View.read_apply]
  show V c main_v40 _ = V c main_v40 _
  congr 1
  funext a
  apply Fin.ext
  match a with
  | ⟨0, _⟩ => show win2_0.index t 0 * 5000 + 1 * (j 0).val = (i 0).val; omega
  | ⟨1, _⟩ => show win2_0.index t 1 * 128 + 1 * (j 1).val = (i 1).val; omega

/-- The same for h. -/
theorem feat_block (c : Dev nD) (t : Fin cfg2.N) (j : S5000x128.Idx) (i : S50000x128.Idx)
    (h0 : (i 0).val = win2_1.index t 0 * 5000 + (j 0).val) (h1 : (i 1).val = win2_1.index t 1 * 128 + (j 1).val) :
    (iblk2 V c 1 t : Vec Ideal S5000x128 .f32) j = (V c main_v29 : Arr Ideal S50000x128 .f32) i := by
  unfold iblk2
  rw [View.read_apply]
  show V c main_v29 _ = V c main_v29 _
  congr 1
  funext a
  apply Fin.ext
  match a with
  | ⟨0, _⟩ => show win2_1.index t 0 * 5000 + 1 * (j 0).val = (i 0).val; omega
  | ⟨1, _⟩ => show win2_1.index t 1 * 128 + 1 * (j 1).val = (i 1).val; omega

/-- The same for the column s, one element wide. -/
theorem coef_block (c : Dev nD) (t : Fin cfg2.N) (j : S5000x1.Idx) (i : S50000x1.Idx)
    (h0 : (i 0).val = win2_2.index t 0 * 5000 + (j 0).val) (h1 : (i 1).val = win2_2.index t 1 * 1 + (j 1).val) :
    (iblk2 V c 2 t : Vec Ideal S5000x1 .f32) j = (V c main_v28 : Arr Ideal S50000x1 .f32) i := by
  unfold iblk2
  rw [View.read_apply]
  show V c main_v28 _ = V c main_v28 _
  congr 1
  funext a
  apply Fin.ext
  match a with
  | ⟨0, _⟩ => show win2_2.index t 0 * 5000 + 1 * (j 0).val = (i 0).val; omega
  | ⟨1, _⟩ => show win2_2.index t 1 * 1 + 1 * (j 1).val = (i 1).val; omega

/-- The same for the row b, one element high: its block is the whole row. -/
theorem bias_block (c : Dev nD) (t : Fin cfg2.N) (j : S1x128.Idx) (i : S1x128.Idx)
    (h0 : (i 0).val = win2_3.index t 0 * 1 + (j 0).val) (h1 : (i 1).val = win2_3.index t 1 * 128 + (j 1).val) :
    (iblk2 V c 3 t : Vec Ideal S1x128 .f32) j = (V c main_v41 : Arr Ideal S1x128 .f32) i := by
  unfold iblk2
  rw [View.read_apply]
  show V c main_v41 _ = V c main_v41 _
  congr 1
  funext a
  apply Fin.ext
  match a with
  | ⟨0, _⟩ => show win2_3.index t 0 * 1 + 1 * (j 0).val = (i 0).val; omega
  | ⟨1, _⟩ => show win2_3.index t 1 * 128 + 1 * (j 1).val = (i 1).val; omega

/-! ## One block of the result -/

/-- The element of a [·,1] column that (r, l) reads: (r, 0); of a [1,·] row: (0, l). In a block, -/
abbrev colOfBlock (j : S5000x128.Idx) : S5000x1.Idx := fun a => match a with
  | ⟨0, _⟩ => ⟨(j 0).val, (j 0).isLt⟩
  | ⟨1, _⟩ => ⟨0, Nat.one_pos⟩
abbrev rowOfBlock (j : S5000x128.Idx) : S1x128.Idx := fun a => match a with
  | ⟨0, _⟩ => ⟨0, Nat.one_pos⟩
  | ⟨1, _⟩ => ⟨(j 1).val, (j 1).isLt⟩
/-- and in the whole array. -/
abbrev colOfArray (i : S50000x128.Idx) : S50000x1.Idx := fun a => match a with
  | ⟨0, _⟩ => ⟨(i 0).val, (i 0).isLt⟩
  | ⟨1, _⟩ => ⟨0, Nat.one_pos⟩
abbrev rowOfArray (i : S50000x128.Idx) : S1x128.Idx := fun a => match a with
  | ⟨0, _⟩ => ⟨0, Nat.one_pos⟩
  | ⟨1, _⟩ => ⟨(i 1).val, (i 1).isLt⟩

/-- The body on point t's four blocks, at (r', l), is the whole-array function at the index (r, l) of the result that
    the block's (r', l) is: the four elements read are the same. -/
theorem block_value (c : Dev nD) (t : Fin cfg2.N) (j : S5000x128.Idx) (i : S50000x128.Idx)
    (h0 : (i 0).val = win2_4.index t 0 * 5000 + (j 0).val) (h1 : (i 1).val = win2_4.index t 1 * 128 + (j 1).val) :
    k2_pay1 (iblk2 V c 0 t) (iblk2 V c 1 t) (iblk2 V c 2 t) (iblk2 V c 3 t) j
      = relu128 (F := Ideal) (combine128 (F := Ideal) (V c main_v40) (V c main_v29) (V c main_v28) (V c main_v41)) i := by
  obtain ⟨e00, e01, e10, e11, e20, e21, e30, e31, e40, e41⟩ := block_indices t
  rw [body_apply _ _ _ _ j (colOfBlock j) (rowOfBlock j) rfl rfl rfl rfl,
    spec_apply _ _ _ _ i (colOfArray i) (rowOfArray i) rfl rfl rfl rfl,
    agg_block V c t j i (by omega) (by omega),
    feat_block V c t j i (by omega) (by omega),
    coef_block V c t (colOfBlock j) (colOfArray i) (by show (i 0).val = win2_2.index t 0 * 5000 + (j 0).val; omega) (by show 0 = win2_2.index t 1 * 1 + 0; omega),
    bias_block V c t (rowOfBlock j) (rowOfArray i) (by show 0 = win2_3.index t 0 * 1 + 0; omega) (by show (i 1).val = win2_3.index t 1 * 128 + (j 1).val; omega)]

/-- What point t writes back is block t of the whole-array function of the operands as the region finds them: the body
    loads its four buffers whole, stores its value over the whole result buffer, and the window is not cut. -/
theorem flushed_block (c : Dev nD) (t : Fin cfg2.N) :
    (dat2 V c).flushed 4 t = ((cfg2.win 4).blk t).view.read (Elt Ideal)
      (relu128 (F := Ideal) (combine128 (F := Ideal) (V c main_v40) (V c main_v29) (V c main_v28) (V c main_v41))) := by
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S5000x1) zero_offsets, View.ld_unit_zero (S := S1x128) zero_offsets]
  funext j
  rw [View.read_apply]
  exact block_value V c t j _
    (by show win2_4.index t 0 * 5000 + 1 * (j 0).val = win2_4.index t 0 * 5000 + (j 0).val; omega)
    (by show win2_4.index t 1 * 128 + 1 * (j 1).val = win2_4.index t 1 * 128 + (j 1).val; omega)

/-! ## The blocks tile the array -/

/-- An index of the result is in point t's block iff each coordinate is in the block's range on its axis. -/
theorem mem_block (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v42).slice (win2_4.rect t)).set ↔ _
  rw [View.set_slice_whole, Rect.mem_set_unit]
  exact Iff.rfl

/-- Row r is in the block of point r / 5000, which is written back like every point's. -/
theorem blocks_cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  let t : Fin cfg2.N := ⟨(i 0).val / 5000, by omega⟩
  obtain ⟨_, _, _, _, _, _, _, _, e40, e41⟩ := block_indices t
  have e40' : win2_4.index t (0 : Fin 2) = (i 0).val / 5000 := e40
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The array the region leaves: every block written back is its block of one function, and the blocks cover the array. -/
theorem final2 (c : Dev nD) :
    @Eq (Arr Ideal S50000x128 .f32) ((dat2 V c).arrAt 4 cfg2.N) (relu128 (F := Ideal) (combine128 (F := Ideal) (V c main_v40) (V c main_v29) (V c main_v28) (V c main_v41))) :=
  (dat2 V c).arrAt_eq_of_cover 4 _ (fun t _ => flushed_block V c t) blocks_cover

end Cert.KernelIdeal.Combine128

end
-- ==== Proof.ChainLayer1.lean ====
/-
  The kernel program's first graph convolution, boundary by boundary. Between two pallas_calls the host applies the
  same gathers and scatter-adds as the reference; each pallas_call leaves a dense stage of its operand arrays. So the
  buffer contents at every boundary are the reference's own stages of the argument arrays: x·W₁, its rows gathered at
  the source endpoints, the messages scaled by the coefficient column, their scatter-add over the destination
  endpoints, and max(agg + h·s + b₁, 0).
-/
import proofs.«105802_j5342939316732_1_alg».proof.Proof.KernelIdealFrame
import proofs.«105802_j5342939316732_1_alg».proof.Proof.Gen.ReferenceIdeal.Read
import proofs.«105802_j5342939316732_1_alg».proof.Proof.DenseStages
import proofs.«105802_j5342939316732_1_alg».proof.Proof.ColumnForms
import proofs.«105802_j5342939316732_1_alg».proof.Proof.Boundary1
import proofs.«105802_j5342939316732_1_alg».proof.Proof.Carried
import proofs.«105802_j5342939316732_1_alg».proof.Proof.StageDot128
import proofs.«105802_j5342939316732_1_alg».proof.Proof.StageScale128
import proofs.«105802_j5342939316732_1_alg».proof.Proof.StageCombine128
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.GenP Cert.Ops Cert.ReferenceIdeal.Read

variable (m : (ℓ : Loc nD τ sig) → Buf (Elt Ideal) ℓ) (ρ : Dev nD → PrngReg)

/-! ## Region 0 leaves x · W₁; it is read again by region 2, three boundaries later -/

theorem W2_h1 (c : Dev nD) : @Eq (Arr Ideal S50000x128 .f32) (W2 m ρ c (Proc.devRef .tc main_v29)) (val_main_v4 (argX m c) (argWa m c)) := by
  refine (W2_arr m ρ c 2).trans ((Dot128.final0 (V1 m ρ) c).trans ?_)
  show dot128 (W1 m ρ c (Proc.devRef .tc main_arg0)) (W1 m ρ c (Proc.devRef .tc main_arg2)) = _
  rw [W1_X, W1_Wa]
  rfl

theorem W3_h1 (c : Dev nD) : @Eq (Arr Ideal S50000x128 .f32) (W3 m ρ c (Proc.devRef .tc main_v29)) (val_main_v4 (argX m c) (argWa m c)) := by
  show StableHlo.after hostOps1 (W2 m ρ c) (Proc.devRef .tc main_v29) = _
  after_results_simp
  exact W2_h1 m ρ c

theorem W4_h1 (c : Dev nD) : @Eq (Arr Ideal S50000x128 .f32) (W4 m ρ c (Proc.devRef .tc main_v29)) (val_main_v4 (argX m c) (argWa m c)) :=
  (W4_of_ne m ρ c main_v29 (by decide)).trans (W3_h1 m ρ c)

theorem W5_h1 (c : Dev nD) : @Eq (Arr Ideal S50000x128 .f32) (W5 m ρ c (Proc.devRef .tc main_v29)) (val_main_v4 (argX m c) (argWa m c)) := by
  show StableHlo.after hostOps2 (W4 m ρ c) (Proc.devRef .tc main_v29) = _
  after_results_simp
  exact W4_h1 m ρ c

/-! ## The gathered rows h[src], the scaled messages, their scatter-add over the destinations -/

theorem W3_gath1 (c : Dev nD) : @Eq (Arr Ideal S800000x128 .f32) (W3 m ρ c (Proc.devRef .tc main_v36)) (val_main_v33 (argX m c) (argE m c) (argWa m c)) := by
  show StableHlo.after hostOps1 (W2 m ρ c) (Proc.devRef .tc main_v36) = _
  after_results_simp
  rw [W2_h1 m ρ c, W2_src m ρ c]
  rfl

theorem W4_msg1 (c : Dev nD) : @Eq (Arr Ideal S800000x128 .f32) (W4 m ρ c (Proc.devRef .tc main_v37)) (val_main_v36 (argX m c) (argE m c) (argWa m c)) := by
  refine (W4_arr m ρ c 2).trans ((Scale128.final1 (V3 m ρ) c).trans ?_)
  show scale128 (W3 m ρ c (Proc.devRef .tc main_v36)) (W3 m ρ c (Proc.devRef .tc main_v26)) = _
  rw [W3_gath1, W3_coef]
  rfl

theorem W5_agg1 (c : Dev nD) : @Eq (Arr Ideal S50000x128 .f32) (W5 m ρ c (Proc.devRef .tc main_v40)) (val_main_v39 (argX m c) (argE m c) (argWa m c)) := by
  show StableHlo.after hostOps2 (W4 m ρ c) (Proc.devRef .tc main_v40) = _
  after_results_simp
  rw [W4_msg1 m ρ c, W4_dst m ρ c]
  rfl

/-- The bias row: the kernel reshapes b₁ to [1,128], the reference broadcasts it along axis 1. -/
theorem W5_bias1 (c : Dev nD) : @Eq (Arr Ideal S1x128 .f32) (W5 m ρ c (Proc.devRef .tc main_v41)) (val_main_v45 (argBa m c)) := by
  refine Eq.trans ?_ (ColumnForms.row128 (argBa m c) shapeCasts_S128_S1x128)
  show StableHlo.after hostOps2 (W4 m ρ c) (Proc.devRef .tc main_v41) = _
  after_results_simp
  rw [W4_Ba m ρ c]
  rfl

/-! ## Region 2 leaves max(agg + h·s + b₁, 0): the first layer's output -/

theorem W6_out1 (c : Dev nD) : @Eq (Arr Ideal S50000x128 .f32) (W6 m ρ c (Proc.devRef .tc main_v42)) (val_main_v48 (argX m c) (argE m c) (argWa m c) (argBa m c)) := by
  refine (W6_arr m ρ c 4).trans ((Combine128.final2 (V5 m ρ) c).trans ?_)
  show relu128 (combine128 (W5 m ρ c (Proc.devRef .tc main_v40)) (W5 m ρ c (Proc.devRef .tc main_v29)) (W5 m ρ c (Proc.devRef .tc main_v28)) (W5 m ρ c (Proc.devRef .tc main_v41))) = _
  rw [W5_agg1, W5_h1, W5_selfc, W5_bias1]
  rfl

end Cert.KernelIdeal.Chain

end
-- ==== Proof.StageDot64.lean ====
/-
  Region 3: five row blocks of [10000,128] each times the whole [128,64] weight; the array the region leaves is h · W₂.
-/
import proofs.«105802_j5342939316732_1_alg».proof.Proof.KernelIdealFrame
import proofs.«105802_j5342939316732_1_alg».proof.Proof.DenseStages
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Dot64

open Cert.KernelIdeal Cert.KernelIdeal.Gen Cert.KernelIdeal.GenP Cert.Ops

variable (V : (c : Dev nD) → (b : Ref sig .tc) → Buf (Elt Ideal) ((c : Thread nD τ).loc b))

theorem zero_offsets : (![0, 0] : Fin 2 → Nat) = fun _ => 0 := funext fun a => by fin_cases a <;> rfl

/-! ## The reference's product h · W₂ at an index -/

theorem lhs_ref_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem lhs_ref_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem rhs_ref_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem rhs_ref_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- Row r, column k of the [50000,128] operand. -/
abbrev rowAt (r : Fin 50000) (k : Fin 128) : S50000x128.Idx := fun a => match a with
  | ⟨0, _⟩ => r
  | ⟨1, _⟩ => k
/-- Row k, column q of the [128,64] weight. -/
abbrev wAt (k : Fin 128) (q : Fin 64) : S128x64.Idx := fun a => match a with
  | ⟨0, _⟩ => k
  | ⟨1, _⟩ => q

/-- Entry (r, q) of h · W₂ is Σₖ x[r,k] · W₂[k,q]. -/
theorem dot64_apply (x : Arr Ideal S50000x128 .f32) (w : Arr Ideal S128x64 .f32) (i : S50000x64.Idx) :
    dot64 (F := Ideal) x w i = ∑ k : Fin 128, x (rowAt (i 0) k) * w (wAt k (i 1)) := by
  unfold dot64
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = rowAt (i 0) k := funext fun a => Fin.ext (by
    match a with
    | ⟨0, _⟩ => exact lhs_ref_0 _ _
    | ⟨1, _⟩ => exact (lhs_ref_1 _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = wAt k (i 1) := funext fun a => Fin.ext (by
    match a with
    | ⟨0, _⟩ => exact (rhs_ref_0 _ _).trans hk
    | ⟨1, _⟩ => exact rhs_ref_1 _ _)
  rw [el, er]

/-! ## The kernel's product of one row block at an index -/

theorem lhs_ker_0 (i : S10000x64.Idx) (q : Cert.KernelIdeal.dot_S10000x128_S128x64_S10000x64_1_0_0_1_n_n.contr.Idx) :
    (Cert.KernelIdeal.dot_S10000x128_S128x64_S10000x64_1_0_0_1_n_n.lhsIdx i q 0).val = (i 0).val := by
  unfold DotDims.lhsIdx
  rw [dif_neg (show ¬(0 : Fin S10000x128.rank) ∈ Cert.KernelIdeal.dot_S10000x128_S128x64_S10000x64_1_0_0_1_n_n.lhsBatch by decide), dif_pos (show (0 : Fin S10000x128.rank) ∈ Cert.KernelIdeal.dot_S10000x128_S128x64_S10000x64_1_0_0_1_n_n.lhsNonContracting by decide)]
  rfl
theorem lhs_ker_1 (i : S10000x64.Idx) (q : Cert.KernelIdeal.dot_S10000x128_S128x64_S10000x64_1_0_0_1_n_n.contr.Idx) :
    (Cert.KernelIdeal.dot_S10000x128_S128x64_S10000x64_1_0_0_1_n_n.lhsIdx i q 1).val = (q ⟨0, by decide⟩).val :=
  Cert.KernelIdeal.dot_S10000x128_S128x64_S10000x64_1_0_0_1_n_n.lhsIdx_val_of_single rfl i q
theorem rhs_ker_0 (i : S10000x64.Idx) (q : Cert.KernelIdeal.dot_S10000x128_S128x64_S10000x64_1_0_0_1_n_n.contr.Idx) :
    (Cert.KernelIdeal.dot_S10000x128_S128x64_S10000x64_1_0_0_1_n_n.rhsIdx i q 0).val = (q ⟨0, by decide⟩).val :=
  Cert.KernelIdeal.dot_S10000x128_S128x64_S10000x64_1_0_0_1_n_n.rhsIdx_val_of_single rfl i q
theorem rhs_ker_1 (i : S10000x64.Idx) (q : Cert.KernelIdeal.dot_S10000x128_S128x64_S10000x64_1_0_0_1_n_n.contr.Idx) :
    (Cert.KernelIdeal.dot_S10000x128_S128x64_S10000x64_1_0_0_1_n_n.rhsIdx i q 1).val = (i 1).val := by
  unfold DotDims.rhsIdx
  rw [dif_neg (show ¬(1 : Fin S128x64.rank) ∈ Cert.KernelIdeal.dot_S10000x128_S128x64_S10000x64_1_0_0_1_n_n.rhsBatch by decide), dif_pos (show (1 : Fin S128x64.rank) ∈ Cert.KernelIdeal.dot_S10000x128_S128x64_S10000x64_1_0_0_1_n_n.rhsNonContracting by decide)]
  rfl

/-- Row r, column k of a [10000,128] row block. -/
abbrev blkAt (r : Fin 10000) (k : Fin 128) : S10000x128.Idx := fun a => match a with
  | ⟨0, _⟩ => r
  | ⟨1, _⟩ => k

/-- Entry (r, q) of the body's product of a loaded row block xb and the loaded weight: Σₖ xb[r,k] · W₂[k,q]
    (the cast of the block to its own shape and the cut to bf16 are the identity on the ideal values, and the accumulator is
    zero). -/
theorem block_product_apply (xb : Vec Ideal S10000x128 .f32) (w : Vec Ideal S128x64 .f32) (j : S10000x64.Idx) :
    k3_pay1 (F := Ideal) xb w j = ∑ k : Fin 128, xb (blkAt (j 0) k) * w (wAt k (j 1)) := by
  unfold k3_pay1
  simp only [matmul, shapeCast_self]
  rw [Ideal.matmul_constant_zero_apply, ← Equiv.sum_comp (ValueIdx.contrEquiv1 Cert.KernelIdeal.dot_S10000x128_S128x64_S10000x64_1_0_0_1_n_n 128 rfl rfl).symm]
  refine Finset.sum_congr rfl fun k _ => ?_
  have hk := ValueIdx.contrEquiv1_symm_val Cert.KernelIdeal.dot_S10000x128_S128x64_S10000x64_1_0_0_1_n_n 128 rfl rfl k
  have el : Cert.KernelIdeal.dot_S10000x128_S128x64_S10000x64_1_0_0_1_n_n.lhsIdx j ((ValueIdx.contrEquiv1 Cert.KernelIdeal.dot_S10000x128_S128x64_S10000x64_1_0_0_1_n_n 128 rfl rfl).symm k) = blkAt (j 0) k := funext fun a => Fin.ext (by
    match a with
    | ⟨0, _⟩ => exact lhs_ker_0 _ _
    | ⟨1, _⟩ => exact (lhs_ker_1 _ _).trans hk)
  have er : Cert.KernelIdeal.dot_S10000x128_S128x64_S10000x64_1_0_0_1_n_n.rhsIdx j ((ValueIdx.contrEquiv1 Cert.KernelIdeal.dot_S10000x128_S128x64_S10000x64_1_0_0_1_n_n 128 rfl rfl).symm k) = wAt k (j 1) := funext fun a => Fin.ext (by
    match a with
    | ⟨0, _⟩ => exact (rhs_ker_0 _ _).trans hk
    | ⟨1, _⟩ => exact rhs_ker_1 _ _)
  rw [el, er]
  rfl

/-! ## From the row blocks to the array -/

/-- The blocks' index maps over the five points: the input row block moves with the output row block, point t at
    block t; the weight's one block is block (0, 0); every column index is 0. -/
theorem block_indices : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- The input window's block at point t, at row r and column k of the block, is the array at row 10000·t + r, column k. -/
theorem rows_block_apply (c : Dev nD) (t : Fin cfg3.N) (j : S10000x128.Idx) (i : S50000x128.Idx)
    (h0 : (i 0).val = 10000 * t.val + (j 0).val) (h1 : (i 1).val = (j 1).val) :
    (iblk3 V c 0 t : Vec Ideal S10000x128 .f32) j = (V c main_v42 : Arr Ideal S50000x128 .f32) i := by
  obtain ⟨-, -, e0, e1, -, -⟩ := block_indices t
  unfold iblk3
  rw [View.read_apply]
  show V c main_v42 _ = V c main_v42 _
  congr 1
  funext a
  apply Fin.ext
  match a with
  | ⟨0, _⟩ => show win3_0.index t (0 : Fin 2) * 10000 + 1 * (j 0).val = (i 0).val; rw [e0, h0]; omega
  | ⟨1, _⟩ => show win3_0.index t (1 : Fin 2) * 128 + 1 * (j 1).val = (i 1).val; rw [e1, h1]; omega

/-- The weight window's block at every point is the whole weight array. -/
theorem weight_block_apply (c : Dev nD) (t : Fin cfg3.N) (j : S128x64.Idx) :
    (iblk3 V c 1 t : Vec Ideal S128x64 .f32) j = (V c main_arg4 : Arr Ideal S128x64 .f32) j := by
  obtain ⟨-, -, -, -, e0, e1⟩ := block_indices t
  unfold iblk3
  rw [View.read_apply]
  show V c main_arg4 _ = V c main_arg4 _
  congr 1
  funext a
  apply Fin.ext
  match a with
  | ⟨0, _⟩ => show win3_1.index t (0 : Fin 2) * 128 + 1 * (j 0).val = (j 0).val; rw [e0]; omega
  | ⟨1, _⟩ => show win3_1.index t (1 : Fin 2) * 64 + 1 * (j 1).val = (j 1).val; rw [e1]; omega

/-- What point t writes back is row block t of h · W₂. -/
theorem written_back_eq (c : Dev nD) (t : Fin cfg3.N) :
    (dat3 V c).flushed 2 t = ((cfg3.win 2).blk t).view.read (Elt Ideal) (dot64 (F := Ideal) (V c main_v42) (V c main_arg4)) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S128x64) zero_offsets]
  obtain ⟨e0, e1, -, -, -, -⟩ := block_indices t
  funext j
  rw [View.read_apply]
  show k3_pay1 (F := Ideal) (iblk3 V c 0 t) (iblk3 V c 1 t) j = dot64 (F := Ideal) (V c main_v42) (V c main_arg4) (((cfg3.win 2).blk t).view.emb j)
  rw [block_product_apply, dot64_apply]
  refine Finset.sum_congr rfl fun k _ => ?_
  have hj0 : (j 0).val < 10000 := (j 0).isLt
  have hr : ((((cfg3.win 2).blk t).view.emb j) 0).val = 10000 * t.val + (j 0).val := by
    show win3_2.index t (0 : Fin 2) * 10000 + 1 * (j 0).val = _; rw [e0]; omega
  have hq : ((((cfg3.win 2).blk t).view.emb j) 1).val = (j 1).val := by
    show win3_2.index t (1 : Fin 2) * 64 + 1 * (j 1).val = _; rw [e1]; omega
  rw [rows_block_apply V c t (blkAt (j 0) k) (rowAt ((((cfg3.win 2).blk t).view.emb j) 0) k) hr rfl, weight_block_apply V c t]
  congr 2
  funext a
  apply Fin.ext
  match a with
  | ⟨0, _⟩ => rfl
  | ⟨1, _⟩ => exact hq.symm

/-- An index of the array is in point t's block iff each coordinate is in the block's range on its axis. -/
theorem mem_row_block (t : Fin cfg3.N) (i : S50000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v43).slice (win3_2.rect t)).set ↔ _
  rw [View.set_slice_whole, Rect.mem_set_unit]
  exact Iff.rfl

/-- Row r of the array lies in the block of point r / 10000, and every point writes its block back. -/
theorem row_blocks_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 5 := N_3
  refine ⟨⟨(i 0).val / 10000, by rw [hN]; omega⟩, flush3_2 _, ?_⟩
  rw [mem_row_block]
  obtain ⟨e0, e1, -, -, -, -⟩ := block_indices ⟨(i 0).val / 10000, by rw [hN]; omega⟩
  intro a
  match a with
  | ⟨0, _⟩ =>
    show win3_2.index _ (0 : Fin 2) * 10000 ≤ (i 0).val ∧ (i 0).val < win3_2.index _ (0 : Fin 2) * 10000 + 10000
    rw [e0]; show (i 0).val / 10000 * 10000 ≤ (i 0).val ∧ (i 0).val < (i 0).val / 10000 * 10000 + 10000; omega
  | ⟨1, _⟩ =>
    show win3_2.index _ (1 : Fin 2) * 64 ≤ (i 1).val ∧ (i 1).val < win3_2.index _ (1 : Fin 2) * 64 + 64
    rw [e1]; omega

/-- The array the region leaves is h · W₂: every point's write-back is its row block of the product, and the five row
    blocks fill the array. -/
theorem final3 (c : Dev nD) :
    @Eq (Arr Ideal S50000x64 .f32) ((dat3 V c).arrAt 2 cfg3.N) (dot64 (F := Ideal) (V c main_v42) (V c main_arg4)) :=
  (dat3 V c).arrAt_eq_of_cover 2 (dot64 (F := Ideal) (V c main_v42) (V c main_arg4)) (fun t _ => written_back_eq V c t) row_blocks_cover

end Cert.KernelIdeal.Dot64

end
-- ==== Proof.StageScale64.lean ====
/-
  Region 4: eighty row blocks of [10000,64] gathered features, each row times its edge's coefficient.
  Point t reads rows 10000·t … 10000·t + 9999 of the features and of the coefficient column and writes the same rows
  of the result: entry (r, q) of its block is feature (10000·t + r, q) times coefficient (10000·t + r, 0). Row r of the
  array lies in the block of point r / 10000 and every point writes back, so the array the region leaves is the
  whole-array scaling of the features by the column.
-/
import proofs.«105802_j5342939316732_1_alg».proof.Proof.KernelIdealFrame
import proofs.«105802_j5342939316732_1_alg».proof.Proof.DenseStages
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Scale64

open Cert.KernelIdeal Cert.KernelIdeal.Gen Cert.KernelIdeal.GenP Cert.Ops

variable (V : (c : Dev nD) → (b : Ref sig .tc) → Buf (Elt Ideal) ((c : Thread nD τ).loc b))

/-- The one store and the two loads sit at offset zero on both axes. -/
theorem zero_offsets : (![0, 0] : Fin 2 → Nat) = fun _ => 0 := funext fun a => by fin_cases a <;> rfl

/-- Over the eighty points: each of the three windows is at row block `t`, column block 0. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The body's product at an index: the block's entry times the column's entry of the same row. -/
theorem product_apply (x0 : Vec Ideal S10000x64 .f32) (x1 : Vec Ideal S10000x1 .f32) (j : S10000x64.Idx) (k : S10000x1.Idx)
    (hk0 : (k 0).val = (j 0).val) (hk1 : (k 1).val = 0) :
    k4_pay1 x0 x1 j = x0 j * x1 k := by
  unfold k4_pay1
  show mulf (F := Ideal) (shapeCast S10000x64 (x0 : FVec Ideal S10000x64 .f32) shapeCasts_S10000x64_S10000x64)
      (broadcastTo S10000x64 (shapeCast S10000x1 (x1 : FVec Ideal S10000x1 .f32) shapeCasts_S10000x1_S10000x1) broadcasts_S10000x1_S10000x64) j = _
  rw [ValueIdx.mulf_apply, shapeCast_self, shapeCast_self]
  rw [broadcastTo_apply x1 broadcasts_S10000x1_S10000x64 j k (fun a => by
    match a with
    | ⟨0, _⟩ => exact hk0
    | ⟨1, _⟩ => exact hk1)]

/-- The whole-array scaling at an index: the entry times the column's entry of the same row. -/
theorem scale64_apply (a : Arr Ideal S800000x64 .f32) (b : Arr Ideal S800000x1 .f32) (i : S800000x64.Idx) (k : S800000x1.Idx)
    (hk0 : (k 0).val = (i 0).val) (hk1 : (k 1).val = 0) :
    scale64 (F := Ideal) a b i = a i * b k := by
  unfold scale64
  rw [ValueIdx.mulf_apply]
  rw [broadcastInDim_apply _ _ b i k (fun a => by
    match a with
    | ⟨0, _⟩ => exact hk0
    | ⟨1, _⟩ => exact hk1)]

/-- Point `t`'s block of the features, at `j`: the array at row `10000 t + j₀`, column `j₁`. -/
theorem feature_block_apply (c : Dev nD) (t : Fin cfg4.N) (j : S10000x64.Idx) (i : S800000x64.Idx)
    (h0 : (i 0).val = t.val * 10000 + (j 0).val) (h1 : (i 1).val = (j 1).val) :
    (iblk4 V c 0 t : Vec Ideal S10000x64 .f32) j = (V c main_v50 : Arr Ideal S800000x64 .f32) i := by
  obtain ⟨e0, e1, -⟩ := block_index t
  unfold iblk4
  rw [View.read_apply]
  show (V c main_v50 : Arr Ideal S800000x64 .f32) _ = (V c main_v50 : Arr Ideal S800000x64 .f32) _
  congr 1
  funext a; apply Fin.ext
  match a with
  | ⟨0, _⟩ => show win4_0.index t (0 : Fin 2) * 10000 + 1 * (j 0).val = (i 0).val; omega
  | ⟨1, _⟩ => show win4_0.index t (1 : Fin 2) * 64 + 1 * (j 1).val = (i 1).val; omega

/-- Point `t`'s block of the coefficient column, at row `k₀`: the column at row `10000 t + k₀`. -/
theorem coef_block_apply (c : Dev nD) (t : Fin cfg4.N) (k : S10000x1.Idx) (i : S800000x1.Idx)
    (h0 : (i 0).val = t.val * 10000 + (k 0).val) :
    (iblk4 V c 1 t : Vec Ideal S10000x1 .f32) k = (V c main_v26 : Arr Ideal S800000x1 .f32) i := by
  obtain ⟨-, -, e2, e3, -⟩ := block_index t
  have hk : (k 1).val < 1 := (k 1).isLt
  have hi : (i 1).val < 1 := (i 1).isLt
  unfold iblk4
  rw [View.read_apply]
  show (V c main_v26 : Arr Ideal S800000x1 .f32) _ = (V c main_v26 : Arr Ideal S800000x1 .f32) _
  congr 1
  funext a; apply Fin.ext
  match a with
  | ⟨0, _⟩ => show win4_1.index t (0 : Fin 2) * 10000 + 1 * (k 0).val = (i 0).val; omega
  | ⟨1, _⟩ => show win4_1.index t (1 : Fin 2) * 1 + 1 * (k 1).val = (i 1).val; omega

/-- What point `t` leaves in its output block, entry by entry: where the block's entry `j` sits at `i` of the array,
    the scaled features at `i`. -/
theorem block_entry (c : Dev nD) (t : Fin cfg4.N) (j : S10000x64.Idx) (i : S800000x64.Idx)
    (h0 : (i 0).val = t.val * 10000 + (j 0).val) (h1 : (i 1).val = (j 1).val) :
    k4_pay1 (iblk4 V c 0 t) (iblk4 V c 1 t) j = scale64 (F := Ideal) (V c main_v50) (V c main_v26) i := by
  have hj : (j 0).val < 10000 := (j 0).isLt
  have hi : (i 0).val < 800000 := (i 0).isLt
  rw [product_apply _ _ j (ValueIdx.ix2 (⟨(j 0).val, hj⟩ : Fin 10000) (⟨0, Nat.one_pos⟩ : Fin 1)) rfl rfl,
    scale64_apply _ _ i (ValueIdx.ix2 (⟨(i 0).val, hi⟩ : Fin 800000) (⟨0, Nat.one_pos⟩ : Fin 1)) rfl rfl,
    feature_block_apply V c t j i h0 h1,
    coef_block_apply V c t _ (ValueIdx.ix2 (⟨(i 0).val, hi⟩ : Fin 800000) (⟨0, Nat.one_pos⟩ : Fin 1)) h0]

/-- What point `t` writes back is block `t` of the scaled features. -/
theorem flushed_rows (c : Dev nD) (t : Fin cfg4.N) :
    (dat4 V c).flushed 2 t = ((cfg4.win 2).blk t).view.read (Elt Ideal) (scale64 (F := Ideal) (V c main_v50) (V c main_v26)) := by
  show (cfg4.win 2).cut (grid4.coords t) ((dat4 V c).after 2 t) = _
  rw [after4_2]
  unfold out4_2
  rw [View.canon_unit_zero zero_offsets]
  simp only [View.ld_unit_zero (S := S10000x64) zero_offsets, View.ld_unit_zero (S := S10000x1) zero_offsets]
  obtain ⟨-, -, -, -, e4, e5⟩ := block_index t
  refine funext fun (j : S10000x64.Idx) => ?_
  show k4_pay1 (iblk4 V c 0 t) (iblk4 V c 1 t) j
    = scale64 (F := Ideal) (V c main_v50) (V c main_v26) (((cfg4.win 2).blk t).view.emb j)
  refine block_entry V c t j _ ?_ ?_
  · show win4_2.index t (0 : Fin 2) * 10000 + 1 * (j 0).val = t.val * 10000 + (j 0).val; omega
  · show win4_2.index t (1 : Fin 2) * 64 + 1 * (j 1).val = (j 1).val; omega

/-- An index of the array is in point `t`'s block iff each coordinate is in the block's range on its axis. -/
theorem mem_block (t : Fin cfg4.N) (i : S800000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v51).slice (win4_2.rect t)).set ↔ _
  rw [View.set_slice_whole, Rect.mem_set_unit]
  exact Iff.rfl

/-- Row `r` of the array is in the block of point `r / 10000`, and every point writes back. -/
theorem rows_covered (i : S800000x64.Idx) :
    ∃ t : Fin cfg4.N, (cfg4.win 2).flush t = true ∧ i ∈ ((cfg4.win 2).blk t).view.set := by
  have hi0 : (i 0).val < 800000 := (i 0).isLt
  have hi1 : (i 1).val < 64 := (i 1).isLt
  have hN : cfg4.N = 80 := N_4
  have hq : (i 0).val / 10000 < cfg4.N := by omega
  obtain ⟨-, -, -, -, e4, e5⟩ := block_index ⟨(i 0).val / 10000, hq⟩
  have e4' : win4_2.index ⟨(i 0).val / 10000, hq⟩ (0 : Fin 2) = (i 0).val / 10000 := e4
  refine ⟨⟨(i 0).val / 10000, hq⟩, flush4_2 _, ?_⟩
  rw [mem_block]
  intro a
  match a with
  | ⟨0, _⟩ =>
    show win4_2.index ⟨(i 0).val / 10000, hq⟩ (0 : Fin 2) * 10000 ≤ (i 0).val
      ∧ (i 0).val < win4_2.index ⟨(i 0).val / 10000, hq⟩ (0 : Fin 2) * 10000 + 10000
    omega
  | ⟨1, _⟩ =>
    show win4_2.index ⟨(i 0).val / 10000, hq⟩ (1 : Fin 2) * 64 ≤ (i 1).val
      ∧ (i 1).val < win4_2.index ⟨(i 0).val / 10000, hq⟩ (1 : Fin 2) * 64 + 64
    omega

theorem final4 (c : Dev nD) :
    @Eq (Arr Ideal S800000x64 .f32) ((dat4 V c).arrAt 2 cfg4.N) (scale64 (F := Ideal) (V c main_v50) (V c main_v26)) :=
  (dat4 V c).arrAt_eq_of_cover 2 (scale64 (F := Ideal) (V c main_v50) (V c main_v26))
    (fun t _ => flushed_rows V c t) rows_covered

end Cert.KernelIdeal.Scale64

end
-- ==== Proof.StageCombine64.lean ====
/-
  Region 5: ten row blocks of [5000,64]; the array the region leaves is agg + h·s + b.

  Point t of the grid takes rows 5000·t … 5000·t + 4999 of agg, h (64 wide) and of the column s, and the whole row b;
  it writes agg[r,l] + h[r,l]·s[r,0] + b[0,l] at the same rows of the result. Read at an index, the body's value on
  block t at (r', l) and the whole-array function at (5000·t + r', l) are the same expression of the same four
  elements; the ten blocks tile the 50000 rows (row r lies in block r / 5000), and every point writes its block back.
-/
import proofs.«105802_j5342939316732_1_alg».proof.Proof.KernelIdealFrame
import proofs.«105802_j5342939316732_1_alg».proof.Proof.DenseStages
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx (mulf_apply addf_apply)

namespace Cert.KernelIdeal.Combine64

open Cert.KernelIdeal Cert.KernelIdeal.Gen Cert.KernelIdeal.GenP Cert.Ops

variable (V : (c : Dev nD) → (b : Ref sig .tc) → Buf (Elt Ideal) ((c : Thread nD τ).loc b))

/-- The body reads and writes each of its buffers from its first element: both offsets are zero. -/
theorem zero_offsets : (![0, 0] : Fin 2 → Nat) = fun _ => 0 := funext fun a => by fin_cases a <;> rfl

/-! ## The two sides at an index -/

/-- The body's value at (r, l) of a block: x0[r,l] + x1[r,l]·x2[r,0] + x3[0,l]. The column x2 is spread along the
    lanes and the row x3 along the rows; `js` and `jb` name the elements of them that (r, l) reads. -/
theorem body_apply (x0 x1 : Vec Ideal S5000x64 .f32) (x2 : Vec Ideal S5000x1 .f32) (x3 : Vec Ideal S1x64 .f32)
    (j : S5000x64.Idx) (js : S5000x1.Idx) (jb : S1x64.Idx)
    (hs0 : (js 0).val = (j 0).val) (hs1 : (js 1).val = 0) (hb0 : (jb 0).val = 0) (hb1 : (jb 1).val = (j 1).val) :
    k5_pay1 x0 x1 x2 x3 j = x0 j + x1 j * x2 js + x3 jb := by
  unfold k5_pay1
  rw [addf_apply, addf_apply, mulf_apply]
  simp only [shapeCast_self]
  rw [broadcastTo_apply x2 _ j js (fun a => match a with
      | ⟨0, _⟩ => by show (js 0).val = if (5000 : Nat) = 1 then 0 else (j 0).val; rw [if_neg (by decide)]; exact hs0
      | ⟨1, _⟩ => by show (js 1).val = if (1 : Nat) = 1 then 0 else (j 1).val; rw [if_pos rfl]; exact hs1),
    broadcastTo_apply x3 _ j jb (fun a => match a with
      | ⟨0, _⟩ => by show (jb 0).val = if (1 : Nat) = 1 then 0 else (j 0).val; rw [if_pos rfl]; exact hb0
      | ⟨1, _⟩ => by show (jb 1).val = if (64 : Nat) = 1 then 0 else (j 1).val; rw [if_neg (by decide)]; exact hb1)]

/-- The whole-array function at (r, l): agg[r,l] + h[r,l]·s[r,0] + b[0,l]. -/
theorem spec_apply (agg h : Arr Ideal S50000x64 .f32) (s : Arr Ideal S50000x1 .f32) (b : Arr Ideal S1x64 .f32)
    (i : S50000x64.Idx) (is : S50000x1.Idx) (ib : S1x64.Idx)
    (hs0 : (is 0).val = (i 0).val) (hs1 : (is 1).val = 0) (hb0 : (ib 0).val = 0) (hb1 : (ib 1).val = (i 1).val) :
    combine64 (F := Ideal) agg h s b i = agg i + h i * s is + b ib := by
  unfold combine64
  rw [addf_apply, addf_apply, mulf_apply]
  rw [broadcastInDim_apply _ _ s i is (fun a => match a with
      | ⟨0, _⟩ => by show (is 0).val = if (50000 : Nat) = 1 then 0 else (i 0).val; rw [if_neg (by decide)]; exact hs0
      | ⟨1, _⟩ => by show (is 1).val = if (1 : Nat) = 1 then 0 else (i 1).val; rw [if_pos rfl]; exact hs1),
    broadcastInDim_apply _ _ b i ib (fun a => match a with
      | ⟨0, _⟩ => by show (ib 0).val = if (1 : Nat) = 1 then 0 else (i 0).val; rw [if_pos rfl]; exact hb0
      | ⟨1, _⟩ => by show (ib 1).val = if (64 : Nat) = 1 then 0 else (i 1).val; rw [if_neg (by decide)]; exact hb1)]

/-! ## Where each window's block lies -/

/-- The index maps over the ten points: the row blocks of agg, h and s move with the result's (block t at point t, one
    block across), and the row b is its one block at every point. -/
theorem block_indices : ∀ t : Fin cfg5.N,
    win5_0.index t (0 : Fin 2) = win5_4.index t (0 : Fin 2) ∧ win5_0.index t (1 : Fin 2) = win5_4.index t (1 : Fin 2)
    ∧ win5_1.index t (0 : Fin 2) = win5_4.index t (0 : Fin 2) ∧ win5_1.index t (1 : Fin 2) = win5_4.index t (1 : Fin 2)
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Block t of agg at (r', l) is agg at (block row · 5000 + r', block column · 64 + l). -/
theorem agg_block (c : Dev nD) (t : Fin cfg5.N) (j : S5000x64.Idx) (i : S50000x64.Idx)
    (h0 : (i 0).val = win5_0.index t 0 * 5000 + (j 0).val) (h1 : (i 1).val = win5_0.index t 1 * 64 + (j 1).val) :
    (iblk5 V c 0 t : Vec Ideal S5000x64 .f32) j = (V c main_v54 : Arr Ideal S50000x64 .f32) i := by
  unfold iblk5
  rw [View.read_apply]
  show V c main_v54 _ = V c main_v54 _
  congr 1
  funext a
  apply Fin.ext
  match a with
  | ⟨0, _⟩ => show win5_0.index t 0 * 5000 + 1 * (j 0).val = (i 0).val; omega
  | ⟨1, _⟩ => show win5_0.index t 1 * 64 + 1 * (j 1).val = (i 1).val; omega

/-- The same for h. -/
theorem feat_block (c : Dev nD) (t : Fin cfg5.N) (j : S5000x64.Idx) (i : S50000x64.Idx)
    (h0 : (i 0).val = win5_1.index t 0 * 5000 + (j 0).val) (h1 : (i 1).val = win5_1.index t 1 * 64 + (j 1).val) :
    (iblk5 V c 1 t : Vec Ideal S5000x64 .f32) j = (V c main_v43 : Arr Ideal S50000x64 .f32) i := by
  unfold iblk5
  rw [View.read_apply]
  show V c main_v43 _ = V c main_v43 _
  congr 1
  funext a
  apply Fin.ext
  match a with
  | ⟨0, _⟩ => show win5_1.index t 0 * 5000 + 1 * (j 0).val = (i 0).val; omega
  | ⟨1, _⟩ => show win5_1.index t 1 * 64 + 1 * (j 1).val = (i 1).val; omega

/-- The same for the column s, one element wide. -/
theorem coef_block (c : Dev nD) (t : Fin cfg5.N) (j : S5000x1.Idx) (i : S50000x1.Idx)
    (h0 : (i 0).val = win5_2.index t 0 * 5000 + (j 0).val) (h1 : (i 1).val = win5_2.index t 1 * 1 + (j 1).val) :
    (iblk5 V c 2 t : Vec Ideal S5000x1 .f32) j = (V c main_v28 : Arr Ideal S50000x1 .f32) i := by
  unfold iblk5
  rw [View.read_apply]
  show V c main_v28 _ = V c main_v28 _
  congr 1
  funext a
  apply Fin.ext
  match a with
  | ⟨0, _⟩ => show win5_2.index t 0 * 5000 + 1 * (j 0).val = (i 0).val; omega
  | ⟨1, _⟩ => show win5_2.index t 1 * 1 + 1 * (j 1).val = (i 1).val; omega

/-- The same for the row b, one element high: its block is the whole row. -/
theorem bias_block (c : Dev nD) (t : Fin cfg5.N) (j : S1x64.Idx) (i : S1x64.Idx)
    (h0 : (i 0).val = win5_3.index t 0 * 1 + (j 0).val) (h1 : (i 1).val = win5_3.index t 1 * 64 + (j 1).val) :
    (iblk5 V c 3 t : Vec Ideal S1x64 .f32) j = (V c main_v55 : Arr Ideal S1x64 .f32) i := by
  unfold iblk5
  rw [View.read_apply]
  show V c main_v55 _ = V c main_v55 _
  congr 1
  funext a
  apply Fin.ext
  match a with
  | ⟨0, _⟩ => show win5_3.index t 0 * 1 + 1 * (j 0).val = (i 0).val; omega
  | ⟨1, _⟩ => show win5_3.index t 1 * 64 + 1 * (j 1).val = (i 1).val; omega

/-! ## One block of the result -/

/-- The element of a [·,1] column that (r, l) reads: (r, 0); of a [1,·] row: (0, l). In a block, -/
abbrev colOfBlock (j : S5000x64.Idx) : S5000x1.Idx := fun a => match a with
  | ⟨0, _⟩ => ⟨(j 0).val, (j 0).isLt⟩
  | ⟨1, _⟩ => ⟨0, Nat.one_pos⟩
abbrev rowOfBlock (j : S5000x64.Idx) : S1x64.Idx := fun a => match a with
  | ⟨0, _⟩ => ⟨0, Nat.one_pos⟩
  | ⟨1, _⟩ => ⟨(j 1).val, (j 1).isLt⟩
/-- and in the whole array. -/
abbrev colOfArray (i : S50000x64.Idx) : S50000x1.Idx := fun a => match a with
  | ⟨0, _⟩ => ⟨(i 0).val, (i 0).isLt⟩
  | ⟨1, _⟩ => ⟨0, Nat.one_pos⟩
abbrev rowOfArray (i : S50000x64.Idx) : S1x64.Idx := fun a => match a with
  | ⟨0, _⟩ => ⟨0, Nat.one_pos⟩
  | ⟨1, _⟩ => ⟨(i 1).val, (i 1).isLt⟩

/-- The body on point t's four blocks, at (r', l), is the whole-array function at the index (r, l) of the result that
    the block's (r', l) is: the four elements read are the same. -/
theorem block_value (c : Dev nD) (t : Fin cfg5.N) (j : S5000x64.Idx) (i : S50000x64.Idx)
    (h0 : (i 0).val = win5_4.index t 0 * 5000 + (j 0).val) (h1 : (i 1).val = win5_4.index t 1 * 64 + (j 1).val) :
    k5_pay1 (iblk5 V c 0 t) (iblk5 V c 1 t) (iblk5 V c 2 t) (iblk5 V c 3 t) j
      = combine64 (F := Ideal) (V c main_v54) (V c main_v43) (V c main_v28) (V c main_v55) i := by
  obtain ⟨e00, e01, e10, e11, e20, e21, e30, e31, e40, e41⟩ := block_indices t
  rw [body_apply _ _ _ _ j (colOfBlock j) (rowOfBlock j) rfl rfl rfl rfl,
    spec_apply _ _ _ _ i (colOfArray i) (rowOfArray i) rfl rfl rfl rfl,
    agg_block V c t j i (by omega) (by omega),
    feat_block V c t j i (by omega) (by omega),
    coef_block V c t (colOfBlock j) (colOfArray i) (by show (i 0).val = win5_2.index t 0 * 5000 + (j 0).val; omega) (by show 0 = win5_2.index t 1 * 1 + 0; omega),
    bias_block V c t (rowOfBlock j) (rowOfArray i) (by show 0 = win5_3.index t 0 * 1 + 0; omega) (by show (i 1).val = win5_3.index t 1 * 64 + (j 1).val; omega)]

/-- What point t writes back is block t of the whole-array function of the operands as the region finds them: the body
    loads its four buffers whole, stores its value over the whole result buffer, and the window is not cut. -/
theorem flushed_block (c : Dev nD) (t : Fin cfg5.N) :
    (dat5 V c).flushed 4 t = ((cfg5.win 4).blk t).view.read (Elt Ideal)
      (combine64 (F := Ideal) (V c main_v54) (V c main_v43) (V c main_v28) (V c main_v55)) := by
  show (cfg5.win 4).cut (grid5.coords t) ((dat5 V c).after 4 t) = _
  rw [after5_4]
  unfold out5_4
  rw [View.canon_unit_zero zero_offsets]
  simp only [View.ld_unit_zero (S := S5000x64) zero_offsets, View.ld_unit_zero (S := S5000x1) zero_offsets, View.ld_unit_zero (S := S1x64) zero_offsets]
  funext j
  rw [View.read_apply]
  exact block_value V c t j _
    (by show win5_4.index t 0 * 5000 + 1 * (j 0).val = win5_4.index t 0 * 5000 + (j 0).val; omega)
    (by show win5_4.index t 1 * 64 + 1 * (j 1).val = win5_4.index t 1 * 64 + (j 1).val; omega)

/-! ## The blocks tile the array -/

/-- An index of the result is in point t's block iff each coordinate is in the block's range on its axis. -/
theorem mem_block (t : Fin cfg5.N) (i : S50000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v56).slice (win5_4.rect t)).set ↔ _
  rw [View.set_slice_whole, Rect.mem_set_unit]
  exact Iff.rfl

/-- Row r is in the block of point r / 5000, which is written back like every point's. -/
theorem blocks_cover (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 10 := N_5
  let t : Fin cfg5.N := ⟨(i 0).val / 5000, by omega⟩
  obtain ⟨_, _, _, _, _, _, _, _, e40, e41⟩ := block_indices t
  have e40' : win5_4.index t (0 : Fin 2) = (i 0).val / 5000 := e40
  refine ⟨t, flush5_4 t, ?_⟩
  rw [mem_block]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- The array the region leaves: every block written back is its block of one function, and the blocks cover the array. -/
theorem final5 (c : Dev nD) :
    @Eq (Arr Ideal S50000x64 .f32) ((dat5 V c).arrAt 4 cfg5.N) (combine64 (F := Ideal) (V c main_v54) (V c main_v43) (V c main_v28) (V c main_v55)) :=
  (dat5 V c).arrAt_eq_of_cover 4 _ (fun t _ => flushed_block V c t) blocks_cover

end Cert.KernelIdeal.Combine64

end
-- ==== Proof.ChainLayer2.lean ====
/-
  The kernel program's second graph convolution, boundary by boundary, on the first layer's output: h·W₂, its rows
  gathered at the source endpoints, the messages scaled by the SAME coefficient column as in the first layer (the
  reference recomputes the in-degrees for the second layer: the same function of the edge list, so the same column),
  their scatter-add over the destination endpoints, and agg + h·s + b₂: the result.
-/
import proofs.«105802_j5342939316732_1_alg».proof.Proof.KernelIdealFrame
import proofs.«105802_j5342939316732_1_alg».proof.Proof.Gen.ReferenceIdeal.Read
import proofs.«105802_j5342939316732_1_alg».proof.Proof.DenseStages
import proofs.«105802_j5342939316732_1_alg».proof.Proof.ColumnForms
import proofs.«105802_j5342939316732_1_alg».proof.Proof.Boundary1
import proofs.«105802_j5342939316732_1_alg».proof.Proof.Carried
import proofs.«105802_j5342939316732_1_alg».proof.Proof.ChainLayer1
import proofs.«105802_j5342939316732_1_alg».proof.Proof.StageDot64
import proofs.«105802_j5342939316732_1_alg».proof.Proof.StageScale64
import proofs.«105802_j5342939316732_1_alg».proof.Proof.StageCombine64
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.GenP Cert.Ops Cert.ReferenceIdeal.Read

variable (m : (ℓ : Loc nD τ sig) → Buf (Elt Ideal) ℓ) (ρ : Dev nD → PrngReg)

/-! ## The reference's second-layer coefficients are its first-layer ones: the same operations of the same edge list -/

theorem coef_again (e : Arr Ideal S2x800000 .i32) : val_main_v79 (F := Ideal) e = val_main_v34 e := rfl
theorem selfc_again (e : Arr Ideal S2x800000 .i32) : val_main_v86 (F := Ideal) e = val_main_v41 e := rfl

/-! ## Region 3 leaves h · W₂; it is read again by region 5, three boundaries later -/

theorem W7_h2 (c : Dev nD) : @Eq (Arr Ideal S50000x64 .f32) (W7 m ρ c (Proc.devRef .tc main_v43)) (val_main_v49 (argX m c) (argE m c) (argWa m c) (argBa m c) (argWb m c)) := by
  refine (W7_arr m ρ c 2).trans ((Dot64.final3 (V6 m ρ) c).trans ?_)
  show dot64 (W6 m ρ c (Proc.devRef .tc main_v42)) (W6 m ρ c (Proc.devRef .tc main_arg4)) = _
  rw [W6_out1, W6_Wb]
  rfl

theorem W8_h2 (c : Dev nD) : @Eq (Arr Ideal S50000x64 .f32) (W8 m ρ c (Proc.devRef .tc main_v43)) (val_main_v49 (argX m c) (argE m c) (argWa m c) (argBa m c) (argWb m c)) := by
  show StableHlo.after hostOps4 (W7 m ρ c) (Proc.devRef .tc main_v43) = _
  after_results_simp
  exact W7_h2 m ρ c

theorem W9_h2 (c : Dev nD) : @Eq (Arr Ideal S50000x64 .f32) (W9 m ρ c (Proc.devRef .tc main_v43)) (val_main_v49 (argX m c) (argE m c) (argWa m c) (argBa m c) (argWb m c)) :=
  (W9_of_ne m ρ c main_v43 (by decide)).trans (W8_h2 m ρ c)

theorem W10_h2 (c : Dev nD) : @Eq (Arr Ideal S50000x64 .f32) (W10 m ρ c (Proc.devRef .tc main_v43)) (val_main_v49 (argX m c) (argE m c) (argWa m c) (argBa m c) (argWb m c)) := by
  show StableHlo.after hostOps5 (W9 m ρ c) (Proc.devRef .tc main_v43) = _
  after_results_simp
  exact W9_h2 m ρ c

/-! ## The gathered rows, the scaled messages, their scatter-add -/

theorem W8_gath2 (c : Dev nD) : @Eq (Arr Ideal S800000x64 .f32) (W8 m ρ c (Proc.devRef .tc main_v50)) (val_main_v78 (argX m c) (argE m c) (argWa m c) (argBa m c) (argWb m c)) := by
  show StableHlo.after hostOps4 (W7 m ρ c) (Proc.devRef .tc main_v50) = _
  after_results_simp
  rw [W7_h2 m ρ c, W7_src m ρ c]
  rfl

theorem W9_msg2 (c : Dev nD) : @Eq (Arr Ideal S800000x64 .f32) (W9 m ρ c (Proc.devRef .tc main_v51)) (val_main_v81 (argX m c) (argE m c) (argWa m c) (argBa m c) (argWb m c)) := by
  refine (W9_arr m ρ c 2).trans ((Scale64.final4 (V8 m ρ) c).trans ?_)
  show scale64 (W8 m ρ c (Proc.devRef .tc main_v50)) (W8 m ρ c (Proc.devRef .tc main_v26)) = _
  rw [W8_gath2, W8_coef, ← coef_again]
  rfl

theorem W10_agg2 (c : Dev nD) : @Eq (Arr Ideal S50000x64 .f32) (W10 m ρ c (Proc.devRef .tc main_v54)) (val_main_v84 (argX m c) (argE m c) (argWa m c) (argBa m c) (argWb m c)) := by
  show StableHlo.after hostOps5 (W9 m ρ c) (Proc.devRef .tc main_v54) = _
  after_results_simp
  rw [W9_msg2 m ρ c, W9_dst m ρ c]
  rfl

/-- The bias row: the kernel reshapes b₂ to [1,64], the reference broadcasts it along axis 1. -/
theorem W10_bias2 (c : Dev nD) : @Eq (Arr Ideal S1x64 .f32) (W10 m ρ c (Proc.devRef .tc main_v55)) (val_main_v90 (argBb m c)) := by
  refine Eq.trans ?_ (ColumnForms.row64 (argBb m c) shapeCasts_S64_S1x64)
  show StableHlo.after hostOps5 (W9 m ρ c) (Proc.devRef .tc main_v55) = _
  after_results_simp
  rw [W9_Bb m ρ c]
  rfl

/-! ## Region 5 leaves agg + h·s + b₂: the program's result is the reference's last stage -/

theorem W11_out2 (c : Dev nD) : @Eq (Arr Ideal S50000x64 .f32) (W11 m ρ c (Proc.devRef .tc main_v56)) (val_main_v92 (argX m c) (argE m c) (argWa m c) (argBa m c) (argWb m c) (argBb m c)) := by
  refine (W11_arr m ρ c 4).trans ((Combine64.final5 (V10 m ρ) c).trans ?_)
  show combine64 (W10 m ρ c (Proc.devRef .tc main_v54)) (W10 m ρ c (Proc.devRef .tc main_v43)) (W10 m ρ c (Proc.devRef .tc main_v28)) (W10 m ρ c (Proc.devRef .tc main_v55)) = _
  rw [W10_agg2, W10_h2, W10_selfc, W10_bias2, ← selfc_again]
  rfl

end Cert.KernelIdeal.Chain

end
-- ==== Proof.lean ====
/-
  A two-layer graph convolution (symmetric-normalised adjacency with self-loops, a cut at zero between the layers)
  whose dense parts run as six pallas_calls — x·W, the scaling of the gathered rows by the edge coefficients, and the
  epilogue agg + h·s + b, once per layer — while the gathers and scatter-adds stay on the host, against the same
  network written with host operations only. At the ideal instance a matrix product accumulated into zero is the
  host's dot_general, the change to bf16 before it is the identity, and every other operation is shared; the kernel
  computes the in-degrees and the two coefficient columns once and the reference once per layer, to the same values.
  So the kernel program's buffers hold, at every boundary between a host stretch and a pallas_call, the reference's
  own stages of the argument arrays, and the result array ends at the reference's last stage. No law beyond the
  reading of the two matrix products as sums is used, and none needs the inputs finite.
-/
import proofs.«105802_j5342939316732_1_alg».proof.Defs
import proofs.«105802_j5342939316732_1_alg».proof.Proof.Gen.Kernel
import proofs.«105802_j5342939316732_1_alg».proof.Proof.Gen.KernelIdeal
import proofs.«105802_j5342939316732_1_alg».proof.Proof.Gen.ReferenceIdeal
import proofs.«105802_j5342939316732_1_alg».proof.Proof.Gen.Pre_finite_inputs
import proofs.«105802_j5342939316732_1_alg».proof.Proof.Gen.ReferenceIdeal.Run
import proofs.«105802_j5342939316732_1_alg».proof.Proof.Gen.ReferenceIdeal.Read
import proofs.«105802_j5342939316732_1_alg».proof.Proof.KernelFrame
import proofs.«105802_j5342939316732_1_alg».proof.Proof.KernelIdealFrame
import proofs.«105802_j5342939316732_1_alg».proof.Proof.KernelIdealRun
import proofs.«105802_j5342939316732_1_alg».proof.Proof.ChainLayer2
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.GenP.frame m ρ

/-- So does the kernel program read at the ideal instance. -/
theorem frame_kernel_ideal : Cert.frame_KernelIdeal := fun m ρ _ => Cert.KernelIdeal.GenP.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) argument arrays in their result arrays. -/
theorem algebraic : Cert.algebraic_KernelIdeal_ReferenceIdeal := by
  intro m ρ m' ρ' _ hagree
  refine ⟨fun c => Cert.KernelIdeal.GenP.W11 m ρ c (Proc.devRef .tc Cert.KernelIdeal.main_v56),
    Cert.KernelIdeal.GenP.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, (hagree c).1, (hagree c).2.1, (hagree c).2.2.1, (hagree c).2.2.2.1,
    (hagree c).2.2.2.2.1, (hagree c).2.2.2.2.2]
  exact (Cert.KernelIdeal.Chain.W11_out2 m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
